-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S32x10 .f32) (main_arg9 : FVec F S32x10 .f32) (main_arg10 : FVec F S10 .f32) (main_v33 : IVec S_ 1) : IVec S_ 1 :=
  let main_v34 : FVec F S32x10 .f32 := Host.absf main_arg8
  let main_cst_12 : FVec F S_ .f32 := constant S_ .f32 0x7F800000#32
  let main_v35 : FVec F S32x10 .f32 := broadcastInDim S32x10 ![] bcast_S_S32x10 main_cst_12
  let main_v36 : IVec S32x10 1 := cmpf .olt main_v34 main_v35
  let main_c_13 : IVec S_ 1 := constantI S_ 1 1#1
  let main_v37 : IVec S_ 1 := (fun x v => Host.reduce IntOp.andi x v reducesTo_S32x10_S_d0_1 h_S_) main_v36 main_c_13
  let main_v38 : IVec S_ 1 := andi main_v33 main_v37
  let main_v39 : FVec F S32x10 .f32 := Host.absf main_arg9
  let main_cst_14 : FVec F S_ .f32 := constant S_ .f32 0x7F800000#32
  let main_v40 : FVec F S32x10 .f32 := broadcastInDim S32x10 ![] bcast_S_S32x10 main_cst_14
  let main_v41 : IVec S32x10 1 := cmpf .olt main_v39 main_v40
  let main_c_15 : IVec S_ 1 := constantI S_ 1 1#1
  let main_v42 : IVec S_ 1 := (fun x v => Host.reduce IntOp.andi x v reducesTo_S32x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S64x32 .f32) (main_arg6 : FVec F S64x32 .f32) (main_arg7 : FVec F S32 .f32) (main_arg8 : FVec F S32x10 .f32) (main_arg9 : FVec F S32x10 .f32) (main_arg10 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1200000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) (main_arg8 : FVec F S32x10 .f32) (main_arg9 : FVec F S32x10 .f32) (main_arg10 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩
abbrev S1200000x32 : Shape := ⟨2, ![1200000, 32]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 96
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x10, .f32⟩
  | .hbm, ⟨9, _⟩ => ⟨S32x10, .f32⟩
  | .hbm, ⟨10, _⟩ => ⟨S10, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S_, .f32⟩
  | .hbm, ⟨29, _⟩ => ⟨S1200000, .f32⟩
  | .hbm, ⟨30, _⟩ => ⟨S_, .f32⟩
  | .hbm, ⟨31, _⟩ => ⟨S100000, .f32⟩
  | .hbm, ⟨32, _⟩ => ⟨S1200000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1200000, .i32⟩
  | .hbm, ⟨44, _⟩ => ⟨S1200000, .i1⟩
  | .hbm, ⟨45, _⟩ => ⟨S_, .i32⟩
  | .hbm, ⟨46, _⟩ => ⟨S1200000, .i32⟩
  | .hbm, ⟨47, _⟩ => ⟨S1200000, .i32⟩
  | .hbm, ⟨48, _⟩ => ⟨S1200000, .i32⟩
  | .hbm, ⟨49, _⟩ => ⟨S1200000x1, .i32⟩
  | .hbm, ⟨50, _⟩ => ⟨S1200000x64, .f32⟩
  | .hbm, ⟨51, _⟩ => ⟨S_, .f32⟩
  | .hbm, ⟨52, _⟩ => ⟨S100000x64, .f32⟩
  | .hbm, ⟨53, _⟩ => ⟨S1200000x1, .i32⟩
  | .hbm, ⟨54, _⟩ => ⟨S100000x64, .f32⟩
  | .hbm, ⟨55, _⟩ => ⟨S_, .f32⟩
  | .hbm, ⟨56, _⟩ => ⟨S1200000, .f32⟩
  | .hbm, ⟨57, _⟩ => ⟨S_, .f32⟩
  | .hbm, ⟨58, _⟩ => ⟨S100000, .f32⟩
  | .hbm, ⟨59, _⟩ => ⟨S1200000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S1x32, .f32⟩
  | .hbm, ⟨68, _⟩ => ⟨S100000x32, .f32⟩
  | .hbm, ⟨69, _⟩ => ⟨S_, .i32⟩
  | .hbm, ⟨70, _⟩ => ⟨S1200000, .i32⟩
  | .hbm, ⟨71, _⟩ => ⟨S1200000, .i1⟩
  | .hbm, ⟨72, _⟩ => ⟨S_, .i32⟩
  | .hbm, ⟨73, _⟩ => ⟨S1200000, .i32⟩
  | .hbm, ⟨74, _⟩ => ⟨S1200000, .i32⟩
  | .hbm, ⟨75, _⟩ => ⟨S1200000, .i32⟩
  | .hbm, ⟨76, _⟩ => ⟨S1200000x1, .i32⟩
  | .hbm, ⟨77, _⟩ => ⟨S1200000x32, .f32⟩
  | .hbm, ⟨78, _⟩ => ⟨S_, .f32⟩
  | .hbm, ⟨79, _⟩ => ⟨S100000x32, .f32⟩
  | .hbm, ⟨80, _⟩ => ⟨S1200000x1, .i32⟩
  | .hbm, ⟨81, _⟩ => ⟨S100000x32, .f32⟩
  | .hbm, ⟨82, _⟩ => ⟨S_, .f32⟩
  | .hbm, ⟨83, _⟩ => ⟨S1200000, .f32⟩
  | .hbm, ⟨84, _⟩ => ⟨S_, .f32⟩
  | .hbm, ⟨85, _⟩ => ⟨S100000, .f32⟩
  | .hbm, ⟨86, _⟩ => ⟨S1200000x1, .i32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x32, .f32⟩
  | .hbm, ⟨93, _⟩ => ⟨S100000x32, .f32⟩
  | .hbm, ⟨94, _⟩ => ⟨S1x10, .f32⟩
  | .hbm, ⟨95, _⟩ => ⟨S100000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x10, .f32⟩
  | .local _ .vmem, ⟨23, _⟩ => ⟨S32x10, .f32⟩
  | .local _ .vmem, ⟨24, _⟩ => ⟨S1x10, .f32⟩
  | .local _ .vmem, ⟨25, _⟩ => ⟨S5000x10, .f32⟩
  | .local _ .vmem, ⟨26, _⟩ => ⟨S5000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S10_S1x10 : S10.ShapeCasts S1x10
  shapeCasts_S5000x32_S5000x32 : S5000x32.ShapeCasts S5000x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  dot_S5000x32_S32x10_S5000x10_1_0_0_1_n_n_wf : DotDims.WF S5000x32 S32x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x10.size a ≤ S32x10.size a
  hwx2_2 : ∀ i : grid2.Coords, EltTy.bits .f32 = 32 ∨ (Rect.block (s := S32x10) S32x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x10.size a ≤ S32x10.size a
  hwx2_3 : ∀ i : grid2.Coords, EltTy.bits .f32 = 32 ∨ (Rect.block (s := S32x10) S32x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x10.size a ≤ S100000x10.size a
  hwx2_5 : ∀ i : grid2.Coords, EltTy.bits .f32 = 32 ∨ (Rect.block (s := S100000x10) S5000x10.size (cc2_transform_5 i) (hinb2_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def dot_S5000x32_S32x10_S5000x10_1_0_0_1_n_n : DotDims S5000x32 S32x10 S5000x10 where
  lhsContracting := [1]
  rhsContracting := [0]
  lhsNonContracting := [0]
  rhsNonContracting := [1]
  lhsBatch := []
  rhsBatch := []
  wf := dot_S5000x32_S32x10_S5000x10_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1200000x32 : Shape := ⟨2, ![1200000, 32]⟩
abbrev S100000x10 : Shape := ⟨2, ![100000, 10]⟩
abbrev S1x10 : Shape := ⟨2, ![1, 10]⟩

abbrev nBuf : Space → Nat
  | .hbm => 159
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64x64, .f32⟩
  | 4 => ⟨S64, .f32⟩
  | 5 => ⟨S64x32, .f32⟩
  | 6 => ⟨S64x32, .f32⟩
  | 7 => ⟨S32, .f32⟩
  | 8 => ⟨S32x10, .f32⟩
  | 9 => ⟨S32x10, .f32⟩
  | 10 => ⟨S10, .f32⟩
  | 11 => ⟨S1x1200000, .i32⟩
  | 12 => ⟨S1200000, .i32⟩
  | 13 => ⟨S1x1200000, .i32⟩
  | 14 => ⟨S1200000, .i32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x64, .f32⟩
  | 24 => ⟨S_, .f32⟩
  | 25 => ⟨S100000x64, .f32⟩
  | 26 => ⟨S1200000x1, .i32⟩
  | 27 => ⟨S100000x64, .f32⟩
  | 28 => ⟨S_, .f32⟩
  | 29 => ⟨S1200000, .f32⟩
  | 30 => ⟨S_, .f32⟩
  | 31 => ⟨S100000, .f32⟩
  | 32 => ⟨S1200000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S100000, .f32⟩
  | 49 => ⟨S100000x1, .f32⟩
  | 50 => ⟨S100000x1, .f32⟩
  | 51 => ⟨S_, .f32⟩
  | 52 => ⟨S100000x1, .f32⟩
  | 53 => ⟨S100000x1, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S_, .i32⟩
  | 60 => ⟨S1200000, .i32⟩
  | 61 => ⟨S1200000, .i1⟩
  | 62 => ⟨S_, .i32⟩
  | 63 => ⟨S1200000, .i32⟩
  | 64 => ⟨S1200000, .i32⟩
  | 65 => ⟨S1200000, .i32⟩
  | 66 => ⟨S1200000x1, .i32⟩
  | 67 => ⟨S1200000x64, .f32⟩
  | 68 => ⟨S_, .f32⟩
  | 69 => ⟨S100000x64, .f32⟩
  | 70 => ⟨S1200000x1, .i32⟩
  | 71 => ⟨S100000x64, .f32⟩
  | 72 => ⟨S_, .f32⟩
  | 73 => ⟨S1200000, .f32⟩
  | 74 => ⟨S_, .f32⟩
  | 75 => ⟨S100000, .f32⟩
  | 76 => ⟨S1200000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x64, .f32⟩
  | 83 => ⟨S100000x64, .f32⟩
  | 84 => ⟨S100000x32, .f32⟩
  | 85 => ⟨S1x32, .f32⟩
  | 86 => ⟨S100000x32, .f32⟩
  | 87 => ⟨S100000x32, .f32⟩
  | 88 => ⟨S100000x32, .f32⟩
  | 89 => ⟨S100000x32, .f32⟩
  | 90 => ⟨S100000x32, .f32⟩
  | 91 => ⟨S_, .f32⟩
  | 92 => ⟨S100000, .f32⟩
  | 93 => ⟨S100000x1, .f32⟩
  | 94 => ⟨S100000x1, .f32⟩
  | 95 => ⟨S_, .f32⟩
  | 96 => ⟨S100000x1, .f32⟩
  | 97 => ⟨S100000x1, .f32⟩
  | 98 => ⟨S100000x32, .f32⟩
  | 99 => ⟨S100000x32, .f32⟩
  | 100 => ⟨S_, .f32⟩
  | 101 => ⟨S100000x32, .f32⟩
  | 102 => ⟨S100000x32, .f32⟩
  | 103 => ⟨S_, .i32⟩
  | 104 => ⟨S1200000, .i32⟩
  | 105 => ⟨S1200000, .i1⟩
  | 106 => ⟨S_, .i32⟩
  | 107 => ⟨S1200000, .i32⟩
  | 108 => ⟨S1200000, .i32⟩
  | 109 => ⟨S1200000, .i32⟩
  | 110 => ⟨S1200000x1, .i32⟩
  | 111 => ⟨S1200000x32, .f32⟩
  | 112 => ⟨S_, .f32⟩
  | 113 => ⟨S100000x32, .f32⟩
  | 114 => ⟨S1200000x1, .i32⟩
  | 115 => ⟨S100000x32, .f32⟩
  | 116 => ⟨S_, .f32⟩
  | 117 => ⟨S1200000, .f32⟩
  | 118 => ⟨S_, .f32⟩
  | 119 => ⟨S100000, .f32⟩
  | 120 => ⟨S1200000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x32, .f32⟩
  | 127 => ⟨S100000x32, .f32⟩
  | _ => ⟨S100000x64, .f32⟩

abbrev hbmTy0_1 (i : Nat) : BufTy := match i % 128 with
  | 0 => ⟨S100000x10, .f32⟩
  | 1 => ⟨S1x10, .f32⟩
  | 2 => ⟨S100000x10, .f32⟩
  | 3 => ⟨S100000x10, .f32⟩
  | 4 => ⟨S100000x10, .f32⟩
  | 5 => ⟨S100000x10, .f32⟩
  | 6 => ⟨S100000x10, .f32⟩
  | 7 => ⟨S_, .f32⟩
  | 8 => ⟨S100000, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S100000x10, .f32⟩
  | 15 => ⟨S100000x10, .f32⟩
  | 16 => ⟨S_, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x10, .f32⟩
  | 23 => ⟨S100000x10, .f32⟩
  | 24 => ⟨S100000x10, .f32⟩
  | 25 => ⟨S_, .f32⟩
  | 26 => ⟨S100000, .f32⟩
  | 27 => ⟨S100000x1, .f32⟩
  | 28 => ⟨S100000x1, .f32⟩
  | 29 => ⟨S100000x10, .f32⟩
  | 30 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_v0 : Ref sig .tc := ⟨.hbm, 90, rfl⟩
abbrev main_call2_cst : Ref sig .tc := ⟨.hbm, 91, rfl⟩
abbrev main_call2_v1 : Ref sig .tc := ⟨.hbm, 92, rfl⟩
abbrev main_call2_v2 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call3_cst : Ref sig .tc := ⟨.hbm, 100, rfl⟩
abbrev main_call3_v0 : Ref sig .tc := ⟨.hbm, 101, rfl⟩
abbrev main_v65 : Ref sig .tc := ⟨.hbm, 102, rfl⟩
abbrev main_c_12 : Ref sig .tc := ⟨.hbm, 103, rfl⟩
abbrev main_v66 : Ref sig .tc := ⟨.hbm, 104, rfl⟩
abbrev main_v67 : Ref sig .tc := ⟨.hbm, 105, rfl⟩
abbrev main_c_13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_cst_16 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_17 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call4_v0 : Ref sig .tc := ⟨.hbm, 134, rfl⟩
abbrev main_call4_cst : Ref sig .tc := ⟨.hbm, 135, rfl⟩
abbrev main_call4_v1 : Ref sig .tc := ⟨.hbm, 136, rfl⟩
abbrev main_call4_v2 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_call5_cst : Ref sig .tc := ⟨.hbm, 144, rfl⟩
abbrev main_call5_v0 : Ref sig .tc := ⟨.hbm, 145, rfl⟩
abbrev main_call5_cst_0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_v6 : Ref sig .tc := ⟨.hbm, 152, rfl⟩
abbrev main_call5_cst_1 : Ref sig .tc := ⟨.hbm, 153, rfl⟩
abbrev main_call5_v7 : Ref sig .tc := ⟨.hbm, 154, rfl⟩
abbrev main_call5_v8 : Ref sig .tc := ⟨.hbm, 155, rfl⟩
abbrev main_call5_v9 : Ref sig .tc := ⟨.hbm, 156, rfl⟩
abbrev main_call5_v10 : Ref sig .tc := ⟨.hbm, 157, rfl⟩
abbrev main_v96 : Ref sig .tc := ⟨.hbm, 158, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  bcast_S100000x1_S100000x10_0_1 : S100000x1.BroadcastsInDim S100000x10 (![0, 1] : Fin 2 → Fin S100000x10.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  dot_S100000x32_S32x10_S100000x10_1_0_0_1_n_n_wf : DotDims.WF S100000x32 S32x10 S100000x10 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.RefStages.lean ====
/-
  The reference program's run, read in three stretches. Its 148 host operations are cut after each of the first two
  layers' outputs. In every stretch a buffer's final contents are that stretch's operations composed over what the
  stretch finds in the buffers it reads: the launch arguments (written by nothing), the two edge-index vectors
  (computed once, in the first stretch) and the previous layer's output. So the result buffer ends at the last stage of
  the launch arguments, without any value that several later operations read ever being written out more than once.
-/
import proofs.«162872_j54039278518913_1_alg».proof.Proof.RefRunP
import proofs.«162872_j54039278518913_1_alg».proof.Proof.RefReadP
import Idealize.ShloMosaic.Lib.Pipeline.Frame

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The first layer: the operations up to its output. -/
def opsA : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_c (constantI S_ 32 0#32),
    unary main_c main_v4 (broadcastInDim S1200000 ![] bcast_S_S1200000 : (⟨S_, .i32⟩ : BufTy).Contents (Elt F) → (⟨S1200000, .i32⟩ : BufTy).Contents (Elt F)),
    binary main_v1 main_v4 main_v5 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v6 (broadcastInDim S1200000 ![] bcast_S_S1200000 : (⟨S_, .i32⟩ : BufTy).Contents (Elt F) → (⟨S1200000, .i32⟩ : BufTy).Contents (Elt F)),
    binary main_v1 main_v6 main_v7 (addi : (⟨S1200000, .i32⟩ : BufTy).Contents (Elt F) → (⟨S1200000, .i32⟩ : BufTy).Contents (Elt F) → (⟨S1200000, .i32⟩ : BufTy).Contents (Elt F)),
    ternary main_v5 main_v7 main_v1 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v8 main_v9 (broadcastInDim S1200000x1 ![0] bcast_S1200000_S1200000x1_0 : (⟨S1200000, .i32⟩ : BufTy).Contents (Elt F) → (⟨S1200000x1, .i32⟩ : BufTy).Contents (Elt F)),
    binary main_arg0 main_v9 main_v10 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1200000x1 ![0] bcast_S1200000_S1200000x1_0 : (⟨S1200000, .i32⟩ : BufTy).Contents (Elt F) → (⟨S1200000x1, .i32⟩ : BufTy).Contents (Elt F)),
    ternary main_v11 main_v12 main_v10 main_v13 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_1 (constant S_ .f32 0x3F800000#32),
    unary main_cst_1 main_v14 (broadcastInDim S1200000 ![] bcast_S_S1200000 : (⟨S_, .f32⟩ : BufTy).Contents (Elt F) → (⟨S1200000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1200000x1 ![0] bcast_S1200000_S1200000x1_0 : (⟨S1200000, .i32⟩ : BufTy).Contents (Elt F) → (⟨S1200000x1, .i32⟩ : BufTy).Contents (Elt F)),
    ternary main_v15 main_v16 main_v14 main_v17 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    binary main_v22 main_arg2 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    binary main_arg0 main_arg3 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v26 main_v27 main_v28 (addf : (⟨S100000x64, .f32⟩ : BufTy).Contents (Elt F) → (⟨S100000x64, .f32⟩ : BufTy).Contents (Elt F) → (⟨S100000x64, .f32⟩ : BufTy).Contents (Elt F)),
    TRef.binary (TRef.of (T := ⟨S100000x64, .f32⟩) main_v28) (TRef.of (T := ⟨S100000x64, .f32⟩) main_v28) (TRef.of (T := ⟨S100000x64, .f32⟩) main_call0_v0) mulf,
    TRef.nullary (TRef.of (T := ⟨S_, .f32⟩) main_call0_cst) (constant S_ .f32 0x00000000#32),
    TRef.binary (TRef.of (T := ⟨S100000x64, .f32⟩) main_call0_v0) (TRef.of (T := ⟨S_, .f32⟩) main_call0_cst) (TRef.of (T := ⟨S100000, .f32⟩) main_call0_v1) (fun x v => Host.reduceAdd x v reducesTo_S100000x64_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v29) Host.sqrt,
    nullary main_cst_4 (constant S_ .f32 0x2B8CBCCC#32),
    unary main_cst_4 main_v30 (broadcastInDim S100000x1 ![] bcast_S_S100000x1 : (⟨S_, .f32⟩ : BufTy).Contents (Elt F) → (⟨S100000x1, .f32⟩ : BufTy).Contents (Elt F)),
    binary main_v29 main_v30 main_v31 (maximumf : (⟨S100000x1, .f32⟩ : BufTy).Contents (Elt F) → (⟨S100000x1, .f32⟩ : BufTy).Contents (Elt F) → (⟨S100000x1, .f32⟩ : BufTy).Contents (Elt F)),
    unary main_v31 main_v32 (broadcastInDim S100000x64 ![0, 1] bcast_S100000x1_S100000x64_0_1 : (⟨S100000x1, .f32⟩ : BufTy).Contents (Elt F) → (⟨S100000x64, .f32⟩ : BufTy).Contents (Elt F)),
    binary main_v28 main_v32 main_v33 (Host.divf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v33) (TRef.of (T := ⟨S100000x64, .f32⟩) main_call1_v0) (TRef.of (T := ⟨S100000x64, .f32⟩) main_v34) maximumf ]

/-- The second layer. -/
def opsB : List (HloOp τ sig (Elt F)) :=
  [ nullary main_c_5 (constantI S_ 32 0#32),
    unary main_c_5 main_v35 (broadcastInDim S1200000 ![] bcast_S_S1200000 : (⟨S_, .i32⟩ : BufTy).Contents (Elt F) → (⟨S1200000, .i32⟩ : BufTy).Contents (Elt F)),
    binary main_v1 main_v35 main_v36 (cmpi .slt : (⟨S1200000, .i32⟩ : BufTy).Contents (Elt F) → (⟨S1200000, .i32⟩ : BufTy).Contents (Elt F) → (⟨S1200000, .i1⟩ : BufTy).Contents (Elt F)),
    nullary main_c_6 (constantI S_ 32 100000#32),
    unary main_c_6 main_v37 (broadcastInDim S1200000 ![] bcast_S_S1200000 : (⟨S_, .i32⟩ : BufTy).Contents (Elt F) → (⟨S1200000, .i32⟩ : BufTy).Contents (Elt F)),
    binary main_v1 main_v37 main_v38 (addi : (⟨S1200000, .i32⟩ : BufTy).Contents (Elt F) → (⟨S1200000, .i32⟩ : BufTy).Contents (Elt F) → (⟨S1200000, .i32⟩ : BufTy).Contents (Elt F)),
    ternary main_v36 main_v38 main_v1 main_v39 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v39 main_v40 (broadcastInDim S1200000x1 ![0] bcast_S1200000_S1200000x1_0 : (⟨S1200000, .i32⟩ : BufTy).Contents (Elt F) → (⟨S1200000x1, .i32⟩ : BufTy).Contents (Elt F)),
    binary main_v34 main_v40 main_v41 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_7 (constant S_ .f32 0x00000000#32),
    unary main_cst_7 main_v42 (broadcastInDim S100000x64 ![] bcast_S_S100000x64 : (⟨S_, .f32⟩ : BufTy).Contents (Elt F) → (⟨S100000x64, .f32⟩ : BufTy).Contents (Elt F)),
    unary main_v3 main_v43 (broadcastInDim S1200000x1 ![0] bcast_S1200000_S1200000x1_0 : (⟨S1200000, .i32⟩ : BufTy).Contents (Elt F) → (⟨S1200000x1, .i32⟩ : BufTy).Contents (Elt F)),
    ternary main_v42 main_v43 main_v41 main_v44 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_8 (constant S_ .f32 0x3F800000#32),
    unary main_cst_8 main_v45 (broadcastInDim S1200000 ![] bcast_S_S1200000 : (⟨S_, .f32⟩ : BufTy).Contents (Elt F) → (⟨S1200000, .f32⟩ : BufTy).Contents (Elt F)),
    nullary main_cst_9 (constant S_ .f32 0x00000000#32),
    unary main_cst_9 main_v46 (broadcastInDim S100000 ![] bcast_S_S100000 : (⟨S_, .f32⟩ : BufTy).Contents (Elt F) → (⟨S100000, .f32⟩ : BufTy).Contents (Elt F)),
    unary main_v3 main_v47 (broadcastInDim S1200000x1 ![0] bcast_S1200000_S1200000x1_0 : (⟨S1200000, .i32⟩ : BufTy).Contents (Elt F) → (⟨S1200000x1, .i32⟩ : BufTy).Contents (Elt F)),
    ternary main_v46 main_v47 main_v45 main_v48 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_10 (constant S_ .f32 0x3F800000#32),
    unary main_cst_10 main_v49 (broadcastInDim S100000 ![] bcast_S_S100000 : (⟨S_, .f32⟩ : BufTy).Contents (Elt F) → (⟨S100000, .f32⟩ : BufTy).Contents (Elt F)),
    binary main_v48 main_v49 main_v50 (maximumf : (⟨S100000, .f32⟩ : BufTy).Contents (Elt F) → (⟨S100000, .f32⟩ : BufTy).Contents (Elt F) → (⟨S100000, .f32⟩ : BufTy).Contents (Elt F)),
    unary main_v50 main_v51 (broadcastInDim S100000x1 ![0] bcast_S100000_S100000x1_0 : (⟨S100000, .f32⟩ : BufTy).Contents (Elt F) → (⟨S100000x1, .f32⟩ : BufTy).Contents (Elt F)),
    unary main_v51 main_v52 (broadcastInDim S100000x64 ![0, 1] bcast_S100000x1_S100000x64_0_1 : (⟨S100000x1, .f32⟩ : BufTy).Contents (Elt F) → (⟨S100000x64, .f32⟩ : BufTy).Contents (Elt F)),
    binary main_v44 main_v52 main_v53 (Host.divf : (⟨S100000x64, .f32⟩ : BufTy).Contents (Elt F) → (⟨S100000x64, .f32⟩ : BufTy).Contents (Elt F) → (⟨S100000x64, .f32⟩ : BufTy).Contents (Elt F)),
    binary main_v53 main_arg5 main_v54 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg7 main_v55 (broadcastInDim S1x32 ![1] bcast_S32_S1x32_1 : (⟨S32, .f32⟩ : BufTy).Contents (Elt F) → (⟨S1x32, .f32⟩ : BufTy).Contents (Elt F)),
    unary main_v55 main_v56 (broadcastInDim S100000x32 ![0, 1] bcast_S1x32_S100000x32_0_1 : (⟨S1x32, .f32⟩ : BufTy).Contents (Elt F) → (⟨S100000x32, .f32⟩ : BufTy).Contents (Elt F)),
    binary main_v54 main_v56 main_v57 (addf : (⟨S100000x32, .f32⟩ : BufTy).Contents (Elt F) → (⟨S100000x32, .f32⟩ : BufTy).Contents (Elt F) → (⟨S100000x32, .f32⟩ : BufTy).Contents (Elt F)),
    binary main_v34 main_arg6 main_v58 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v57 main_v58 main_v59 (addf : (⟨S100000x32, .f32⟩ : BufTy).Contents (Elt F) → (⟨S100000x32, .f32⟩ : BufTy).Contents (Elt F) → (⟨S100000x32, .f32⟩ : BufTy).Contents (Elt F)),
    TRef.binary (TRef.of (T := ⟨S100000x32, .f32⟩) main_v59) (TRef.of (T := ⟨S100000x32, .f32⟩) main_v59) (TRef.of (T := ⟨S100000x32, .f32⟩) main_call2_v0) mulf,
    TRef.nullary (TRef.of (T := ⟨S_, .f32⟩) main_call2_cst) (constant S_ .f32 0x00000000#32),
    TRef.binary (TRef.of (T := ⟨S100000x32, .f32⟩) main_call2_v0) (TRef.of (T := ⟨S_, .f32⟩) main_call2_cst) (TRef.of (T := ⟨S100000, .f32⟩) main_call2_v1) (fun x v => Host.reduceAdd x v reducesTo_S100000x32_S100000_d1 h_S_),
    TRef.unary (TRef.of (T := ⟨S100000, .f32⟩) main_call2_v1) (TRef.of (T := ⟨S100000x1, .f32⟩) main_call2_v2) (broadcastInDim S100000x1 ![0] bcast_S100000_S100000x1_0),
    TRef.unary (TRef.of (T := ⟨S100000x1, .f32⟩) main_call2_v2) (TRef.of (T := ⟨S100000x1, .f32⟩) main_v60) Host.sqrt,
    nullary main_cst_11 (constant S_ .f32 0x2B8CBCCC#32),
    unary main_cst_11 main_v61 (broadcastInDim S100000x1 ![] bcast_S_S100000x1 : (⟨S_, .f32⟩ : BufTy).Contents (Elt F) → (⟨S100000x1, .f32⟩ : BufTy).Contents (Elt F)),
    binary main_v60 main_v61 main_v62 (maximumf : (⟨S100000x1, .f32⟩ : BufTy).Contents (Elt F) → (⟨S100000x1, .f32⟩ : BufTy).Contents (Elt F) → (⟨S100000x1, .f32⟩ : BufTy).Contents (Elt F)),
    unary main_v62 main_v63 (broadcastInDim S100000x32 ![0, 1] bcast_S100000x1_S100000x32_0_1 : (⟨S100000x1, .f32⟩ : BufTy).Contents (Elt F) → (⟨S100000x32, .f32⟩ : BufTy).Contents (Elt F)),
    binary main_v59 main_v63 main_v64 (Host.divf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x32, .f32⟩) main_call3_v0) (broadcastInDim S100000x32 ![] bcast_S_S100000x32),
    TRef.binary (TRef.of (T := ⟨S100000x32, .f32⟩) main_v64) (TRef.of (T := ⟨S100000x32, .f32⟩) main_call3_v0) (TRef.of (T := ⟨S100000x32, .f32⟩) main_v65) maximumf ]

/-- The third layer and the log-softmax. -/
def opsC : List (HloOp τ sig (Elt F)) :=
  [ nullary main_c_12 (constantI S_ 32 0#32),
    unary main_c_12 main_v66 (broadcastInDim S1200000 ![] bcast_S_S1200000 : (⟨S_, .i32⟩ : BufTy).Contents (Elt F) → (⟨S1200000, .i32⟩ : BufTy).Contents (Elt F)),
    binary main_v1 main_v66 main_v67 (cmpi .slt : (⟨S1200000, .i32⟩ : BufTy).Contents (Elt F) → (⟨S1200000, .i32⟩ : BufTy).Contents (Elt F) → (⟨S1200000, .i1⟩ : BufTy).Contents (Elt F)),
    nullary main_c_13 (constantI S_ 32 100000#32),
    unary main_c_13 main_v68 (broadcastInDim S1200000 ![] bcast_S_S1200000 : (⟨S_, .i32⟩ : BufTy).Contents (Elt F) → (⟨S1200000, .i32⟩ : BufTy).Contents (Elt F)),
    binary main_v1 main_v68 main_v69 (addi : (⟨S1200000, .i32⟩ : BufTy).Contents (Elt F) → (⟨S1200000, .i32⟩ : BufTy).Contents (Elt F) → (⟨S1200000, .i32⟩ : BufTy).Contents (Elt F)),
    ternary main_v67 main_v69 main_v1 main_v70 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v70 main_v71 (broadcastInDim S1200000x1 ![0] bcast_S1200000_S1200000x1_0 : (⟨S1200000, .i32⟩ : BufTy).Contents (Elt F) → (⟨S1200000x1, .i32⟩ : BufTy).Contents (Elt F)),
    binary main_v65 main_v71 main_v72 ((fun x i => Host.gather gather_S100000x32_S1200000x1_S1200000x32_1_0_n_n_0_1_132 x i) : (⟨S100000x32, .f32⟩ : BufTy).Contents (Elt F) → (⟨S1200000x1, .i32⟩ : BufTy).Contents (Elt F) → (⟨S1200000x32, .f32⟩ : BufTy).Contents (Elt F)),
    nullary main_cst_14 (constant S_ .f32 0x00000000#32),
    unary main_cst_14 main_v73 (broadcastInDim S100000x32 ![] bcast_S_S100000x32 : (⟨S_, .f32⟩ : BufTy).Contents (Elt F) → (⟨S100000x32, .f32⟩ : BufTy).Contents (Elt F)),
    unary main_v3 main_v74 (broadcastInDim S1200000x1 ![0] bcast_S1200000_S1200000x1_0 : (⟨S1200000, .i32⟩ : BufTy).Contents (Elt F) → (⟨S1200000x1, .i32⟩ : BufTy).Contents (Elt F)),
    ternary main_v73 main_v74 main_v72 main_v75 ((fun x i u => Host.scatterAdd scatter_S100000x32_S1200000x1_S1200000x32_1_0_0_1 x i u) : (⟨S100000x32, .f32⟩ : BufTy).Contents (Elt F) → (⟨S1200000x1, .i32⟩ : BufTy).Contents (Elt F) → (⟨S1200000x32, .f32⟩ : BufTy).Contents (Elt F) → (⟨S100000x32, .f32⟩ : BufTy).Contents (Elt F)),
    nullary main_cst_15 (constant S_ .f32 0x3F800000#32),
    unary main_cst_15 main_v76 (broadcastInDim S1200000 ![] bcast_S_S1200000 : (⟨S_, .f32⟩ : BufTy).Contents (Elt F) → (⟨S1200000, .f32⟩ : BufTy).Contents (Elt F)),
    nullary main_cst_16 (constant S_ .f32 0x00000000#32),
    unary main_cst_16 main_v77 (broadcastInDim S100000 ![] bcast_S_S100000 : (⟨S_, .f32⟩ : BufTy).Contents (Elt F) → (⟨S100000, .f32⟩ : BufTy).Contents (Elt F)),
    unary main_v3 main_v78 (broadcastInDim S1200000x1 ![0] bcast_S1200000_S1200000x1_0 : (⟨S1200000, .i32⟩ : BufTy).Contents (Elt F) → (⟨S1200000x1, .i32⟩ : BufTy).Contents (Elt F)),
    ternary main_v77 main_v78 main_v76 main_v79 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_17 (constant S_ .f32 0x3F800000#32),
    unary main_cst_17 main_v80 (broadcastInDim S100000 ![] bcast_S_S100000 : (⟨S_, .f32⟩ : BufTy).Contents (Elt F) → (⟨S100000, .f32⟩ : BufTy).Contents (Elt F)),
    binary main_v79 main_v80 main_v81 (maximumf : (⟨S100000, .f32⟩ : BufTy).Contents (Elt F) → (⟨S100000, .f32⟩ : BufTy).Contents (Elt F) → (⟨S100000, .f32⟩ : BufTy).Contents (Elt F)),
    unary main_v81 main_v82 (broadcastInDim S100000x1 ![0] bcast_S100000_S100000x1_0 : (⟨S100000, .f32⟩ : BufTy).Contents (Elt F) → (⟨S100000x1, .f32⟩ : BufTy).Contents (Elt F)),
    unary main_v82 main_v83 (broadcastInDim S100000x32 ![0, 1] bcast_S100000x1_S100000x32_0_1 : (⟨S100000x1, .f32⟩ : BufTy).Contents (Elt F) → (⟨S100000x32, .f32⟩ : BufTy).Contents (Elt F)),
    binary main_v75 main_v83 main_v84 (Host.divf : (⟨S100000x32, .f32⟩ : BufTy).Contents (Elt F) → (⟨S100000x32, .f32⟩ : BufTy).Contents (Elt F) → (⟨S100000x32, .f32⟩ : BufTy).Contents (Elt F)),
    binary main_v84 main_arg8 main_v85 ((fun l r => Host.dotGeneral dot_S100000x32_S32x10_S100000x10_1_0_0_1_n_n none l r) : (⟨S100000x32, .f32⟩ : BufTy).Contents (Elt F) → (⟨S32x10, .f32⟩ : BufTy).Contents (Elt F) → (⟨S100000x10, .f32⟩ : BufTy).Contents (Elt F)),
    unary main_arg10 main_v86 (broadcastInDim S1x10 ![1] bcast_S10_S1x10_1 : (⟨S10, .f32⟩ : BufTy).Contents (Elt F) → (⟨S1x10, .f32⟩ : BufTy).Contents (Elt F)),
    unary main_v86 main_v87 (broadcastInDim S100000x10 ![0, 1] bcast_S1x10_S100000x10_0_1 : (⟨S1x10, .f32⟩ : BufTy).Contents (Elt F) → (⟨S100000x10, .f32⟩ : BufTy).Contents (Elt F)),
    binary main_v85 main_v87 main_v88 (addf : (⟨S100000x10, .f32⟩ : BufTy).Contents (Elt F) → (⟨S100000x10, .f32⟩ : BufTy).Contents (Elt F) → (⟨S100000x10, .f32⟩ : BufTy).Contents (Elt F)),
    binary main_v65 main_arg9 main_v89 ((fun l r => Host.dotGeneral dot_S100000x32_S32x10_S100000x10_1_0_0_1_n_n none l r) : (⟨S100000x32, .f32⟩ : BufTy).Contents (Elt F) → (⟨S32x10, .f32⟩ : BufTy).Contents (Elt F) → (⟨S100000x10, .f32⟩ : BufTy).Contents (Elt F)),
    binary main_v88 main_v89 main_v90 (addf : (⟨S100000x10, .f32⟩ : BufTy).Contents (Elt F) → (⟨S100000x10, .f32⟩ : BufTy).Contents (Elt F) → (⟨S100000x10, .f32⟩ : BufTy).Contents (Elt F)),
    TRef.binary (TRef.of (T := ⟨S100000x10, .f32⟩) main_v90) (TRef.of (T := ⟨S100000x10, .f32⟩) main_v90) (TRef.of (T := ⟨S100000x10, .f32⟩) main_call4_v0) mulf,
    TRef.nullary (TRef.of (T := ⟨S_, .f32⟩) main_call4_cst) (constant S_ .f32 0x00000000#32),
    TRef.binary (TRef.of (T := ⟨S100000x10, .f32⟩) main_call4_v0) (TRef.of (T := ⟨S_, .f32⟩) main_call4_cst) (TRef.of (T := ⟨S100000, .f32⟩) main_call4_v1) (fun x v => Host.reduceAdd x v reducesTo_S100000x10_S100000_d1 h_S_),
    TRef.unary (TRef.of (T := ⟨S100000, .f32⟩) main_call4_v1) (TRef.of (T := ⟨S100000x1, .f32⟩) main_call4_v2) (broadcastInDim S100000x1 ![0] bcast_S100000_S100000x1_0),
    TRef.unary (TRef.of (T := ⟨S100000x1, .f32⟩) main_call4_v2) (TRef.of (T := ⟨S100000x1, .f32⟩) main_v91) Host.sqrt,
    nullary main_cst_18 (constant S_ .f32 0x2B8CBCCC#32),
    unary main_cst_18 main_v92 (broadcastInDim S100000x1 ![] bcast_S_S100000x1 : (⟨S_, .f32⟩ : BufTy).Contents (Elt F) → (⟨S100000x1, .f32⟩ : BufTy).Contents (Elt F)),
    binary main_v91 main_v92 main_v93 (maximumf : (⟨S100000x1, .f32⟩ : BufTy).Contents (Elt F) → (⟨S100000x1, .f32⟩ : BufTy).Contents (Elt F) → (⟨S100000x1, .f32⟩ : BufTy).Contents (Elt F)),
    unary main_v93 main_v94 (broadcastInDim S100000x10 ![0, 1] bcast_S100000x1_S100000x10_0_1 : (⟨S100000x1, .f32⟩ : BufTy).Contents (Elt F) → (⟨S100000x10, .f32⟩ : BufTy).Contents (Elt F)),
    binary main_v90 main_v94 main_v95 (Host.divf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call5_cst) (constant S_ .f32 0xFF800000#32),
    TRef.binary (TRef.of (T := ⟨S100000x10, .f32⟩) main_v95) (TRef.of (T := ⟨S_, .f32⟩) main_call5_cst) (TRef.of (T := ⟨S100000, .f32⟩) main_call5_v0) (fun x v => Host.reduce FloatOps.maximumf x v reducesTo_S100000x10_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x10, .f32⟩) main_call5_v4) (broadcastInDim S100000x10 ![0, 1] bcast_S100000x1_S100000x10_0_1),
    TRef.binary (TRef.of (T := ⟨S100000x10, .f32⟩) main_v95) (TRef.of (T := ⟨S100000x10, .f32⟩) main_call5_v4) (TRef.of (T := ⟨S100000x10, .f32⟩) main_call5_v5) subf,
    TRef.unary (TRef.of (T := ⟨S100000x10, .f32⟩) main_call5_v5) (TRef.of (T := ⟨S100000x10, .f32⟩) main_call5_v6) Host.exp,
    TRef.nullary (TRef.of (T := ⟨S_, .f32⟩) main_call5_cst_1) (constant S_ .f32 0x00000000#32),
    TRef.binary (TRef.of (T := ⟨S100000x10, .f32⟩) main_call5_v6) (TRef.of (T := ⟨S_, .f32⟩) main_call5_cst_1) (TRef.of (T := ⟨S100000, .f32⟩) main_call5_v7) (fun x v => Host.reduceAdd x v reducesTo_S100000x10_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x10, .f32⟩) main_call5_v10) (broadcastInDim S100000x10 ![0, 1] bcast_S100000x1_S100000x10_0_1),
    TRef.binary (TRef.of (T := ⟨S100000x10, .f32⟩) main_call5_v5) (TRef.of (T := ⟨S100000x10, .f32⟩) main_call5_v10) (TRef.of (T := ⟨S100000x10, .f32⟩) main_v96) subf ]

set_option maxRecDepth 65536 in
/-- The three stretches, in order, are the program's operations. -/
theorem ops_split : (ValueP.ops : List (HloOp τ sig (Elt F))) = opsA ++ (opsB ++ opsC) := rfl

variable (m : (ℓ : Loc nD τ sig) → Buf (Elt F) ℓ) (c : Dev nD)

/-- The buffers after the first stretch. -/
def WA : Valuation τ sig (Elt F) := after opsA (launchContents m c)
/-- The buffers after the second stretch. -/
def WB : Valuation τ sig (Elt F) := after opsB (WA m c)

/-! ## After the first stretch -/

theorem WA_v1 : WA m c (Proc.devRef .tc main_v1) = ReadP.val_main_v1 (F := F) (m ((c.tc : Thread nD τ).loc main_arg1)) := by
  show after opsA (launchContents m c) (Proc.devRef .tc main_v1) = _
  simp only [opsA]
  after_results_simp <;> (try simp only [TRef.ofBuf, TRef.toBuf, cast_eq]) <;> rfl
theorem WA_v3 : WA m c (Proc.devRef .tc main_v3) = ReadP.val_main_v3 (F := F) (m ((c.tc : Thread nD τ).loc main_arg1)) := by
  show after opsA (launchContents m c) (Proc.devRef .tc main_v3) = _
  simp only [opsA]
  after_results_simp <;> (try simp only [TRef.ofBuf, TRef.toBuf, cast_eq]) <;> rfl
/-- The first layer's output is its stage of the launch arguments. -/
theorem WA_v34 : WA m c (Proc.devRef .tc main_v34) = ReadP.val_main_v34 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after opsA (launchContents m c) (Proc.devRef .tc main_v34) = _
  simp only [opsA]
  after_results_simp <;> (try simp only [TRef.ofBuf, TRef.toBuf, cast_eq]) <;> rfl
theorem WA_arg5 : WA m c (Proc.devRef .tc main_arg5) = m ((c.tc : Thread nD τ).loc main_arg5) := by
  show after opsA (launchContents m c) (Proc.devRef .tc main_arg5) = _
  simp only [opsA]
  after_results_simp <;> rfl
theorem WA_arg6 : WA m c (Proc.devRef .tc main_arg6) = m ((c.tc : Thread nD τ).loc main_arg6) := by
  show after opsA (launchContents m c) (Proc.devRef .tc main_arg6) = _
  simp only [opsA]
  after_results_simp <;> rfl
theorem WA_arg7 : WA m c (Proc.devRef .tc main_arg7) = m ((c.tc : Thread nD τ).loc main_arg7) := by
  show after opsA (launchContents m c) (Proc.devRef .tc main_arg7) = _
  simp only [opsA]
  after_results_simp <;> rfl
theorem WA_arg8 : WA m c (Proc.devRef .tc main_arg8) = m ((c.tc : Thread nD τ).loc main_arg8) := by
  show after opsA (launchContents m c) (Proc.devRef .tc main_arg8) = _
  simp only [opsA]
  after_results_simp <;> rfl
theorem WA_arg9 : WA m c (Proc.devRef .tc main_arg9) = m ((c.tc : Thread nD τ).loc main_arg9) := by
  show after opsA (launchContents m c) (Proc.devRef .tc main_arg9) = _
  simp only [opsA]
  after_results_simp <;> rfl
theorem WA_arg10 : WA m c (Proc.devRef .tc main_arg10) = m ((c.tc : Thread nD τ).loc main_arg10) := by
  show after opsA (launchContents m c) (Proc.devRef .tc main_arg10) = _
  simp only [opsA]
  after_results_simp <;> rfl

/-! ## After the second stretch -/

theorem WB_v1 : WB m c (Proc.devRef .tc main_v1) = ReadP.val_main_v1 (F := F) (m ((c.tc : Thread nD τ).loc main_arg1)) :=
  Eq.trans (by
    show after opsB (WA m c) (Proc.devRef .tc main_v1) = WA m c (Proc.devRef .tc main_v1)
    simp only [opsB]
    after_results_simp <;> rfl) (WA_v1 m c)
theorem WB_v3 : WB m c (Proc.devRef .tc main_v3) = ReadP.val_main_v3 (F := F) (m ((c.tc : Thread nD τ).loc main_arg1)) :=
  Eq.trans (by
    show after opsB (WA m c) (Proc.devRef .tc main_v3) = WA m c (Proc.devRef .tc main_v3)
    simp only [opsB]
    after_results_simp <;> rfl) (WA_v3 m c)
theorem WB_arg8 : WB m c (Proc.devRef .tc main_arg8) = m ((c.tc : Thread nD τ).loc main_arg8) :=
  Eq.trans (by
    show after opsB (WA m c) (Proc.devRef .tc main_arg8) = WA m c (Proc.devRef .tc main_arg8)
    simp only [opsB]
    after_results_simp <;> rfl) (WA_arg8 m c)
theorem WB_arg9 : WB m c (Proc.devRef .tc main_arg9) = m ((c.tc : Thread nD τ).loc main_arg9) :=
  Eq.trans (by
    show after opsB (WA m c) (Proc.devRef .tc main_arg9) = WA m c (Proc.devRef .tc main_arg9)
    simp only [opsB]
    after_results_simp <;> rfl) (WA_arg9 m c)
theorem WB_arg10 : WB m c (Proc.devRef .tc main_arg10) = m ((c.tc : Thread nD τ).loc main_arg10) :=
  Eq.trans (by
    show after opsB (WA m c) (Proc.devRef .tc main_arg10) = WA m c (Proc.devRef .tc main_arg10)
    simp only [opsB]
    after_results_simp <;> rfl) (WA_arg10 m c)
/-- The second layer's output is its stage of the launch arguments: the stretch's operations over the first layer's
    output, the edge-index vectors and the second layer's weights and bias. -/
theorem WB_v65 : WB m c (Proc.devRef .tc main_v65) = ReadP.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after opsB (WA m c) (Proc.devRef .tc main_v65) = _
  simp only [opsB]
  after_results_simp
  try simp only [TRef.ofBuf, TRef.toBuf, cast_eq]
  rw [WA_v34 m c, WA_v1 m c, WA_v3 m c, WA_arg5 m c, WA_arg6 m c, WA_arg7 m c]
  rfl

/-! ## After the third stretch -/

/-- The result is the last stage of the launch arguments. -/
theorem WC_v96 : after opsC (WB m c) (Proc.devRef .tc main_v96) = ReadP.val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [opsC]
  after_results_simp
  try simp only [TRef.ofBuf, TRef.toBuf, cast_eq]
  rw [WB_v65 m c, WB_v1 m c, WB_v3 m c, WB_arg8 m c, WB_arg9 m c, WB_arg10 m c]
  rfl

/-- The whole program's operations, folded over the launch contents, leave the result buffer at that stage. -/
theorem fold_v96 : after ValueP.ops (launchContents m c) (Proc.devRef .tc main_v96) = ReadP.val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (congrArg (fun l => after l (launchContents m c) (Proc.devRef .tc main_v96)) ops_split).trans ?_
  show after (opsA ++ (opsB ++ opsC)) (launchContents m c) (Proc.devRef .tc main_v96) = _
  rw [StableHlo.after_append, StableHlo.after_append]
  exact WC_v96 m c

set_option maxHeartbeats 4000000 in
theorem fold_arg0 : after ValueP.ops (launchContents m c) (Proc.devRef .tc main_arg0) = m ((c.tc : Thread nD τ).loc main_arg0) := by
  after_results_simp <;> rfl
set_option maxHeartbeats 4000000 in
theorem fold_arg1 : after ValueP.ops (launchContents m c) (Proc.devRef .tc main_arg1) = m ((c.tc : Thread nD τ).loc main_arg1) := by
  after_results_simp <;> rfl
set_option maxHeartbeats 4000000 in
theorem fold_arg2 : after ValueP.ops (launchContents m c) (Proc.devRef .tc main_arg2) = m ((c.tc : Thread nD τ).loc main_arg2) := by
  after_results_simp <;> rfl
set_option maxHeartbeats 4000000 in
theorem fold_arg3 : after ValueP.ops (launchContents m c) (Proc.devRef .tc main_arg3) = m ((c.tc : Thread nD τ).loc main_arg3) := by
  after_results_simp <;> rfl
set_option maxHeartbeats 4000000 in
theorem fold_arg4 : after ValueP.ops (launchContents m c) (Proc.devRef .tc main_arg4) = m ((c.tc : Thread nD τ).loc main_arg4) := by
  after_results_simp <;> rfl
set_option maxHeartbeats 4000000 in
theorem fold_arg5 : after ValueP.ops (launchContents m c) (Proc.devRef .tc main_arg5) = m ((c.tc : Thread nD τ).loc main_arg5) := by
  after_results_simp <;> rfl
set_option maxHeartbeats 4000000 in
theorem fold_arg6 : after ValueP.ops (launchContents m c) (Proc.devRef .tc main_arg6) = m ((c.tc : Thread nD τ).loc main_arg6) := by
  after_results_simp <;> rfl
set_option maxHeartbeats 4000000 in
theorem fold_arg7 : after ValueP.ops (launchContents m c) (Proc.devRef .tc main_arg7) = m ((c.tc : Thread nD τ).loc main_arg7) := by
  after_results_simp <;> rfl
set_option maxHeartbeats 4000000 in
theorem fold_arg8 : after ValueP.ops (launchContents m c) (Proc.devRef .tc main_arg8) = m ((c.tc : Thread nD τ).loc main_arg8) := by
  after_results_simp <;> rfl
set_option maxHeartbeats 4000000 in
theorem fold_arg9 : after ValueP.ops (launchContents m c) (Proc.devRef .tc main_arg9) = m ((c.tc : Thread nD τ).loc main_arg9) := by
  after_results_simp <;> rfl
set_option maxHeartbeats 4000000 in
theorem fold_arg10 : after ValueP.ops (launchContents m c) (Proc.devRef .tc main_arg10) = m ((c.tc : Thread nD τ).loc main_arg10) := by
  after_results_simp <;> rfl

/-- On every device, from any memory with zero counters: every weakly fair execution of @main terminates with the result
    at the last stage of the launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = ReadP.val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v96).trans (fold_v96 m c),
      (h c main_arg0).trans (fold_arg0 m c),
      (h c main_arg1).trans (fold_arg1 m c),
      (h c main_arg2).trans (fold_arg2 m c),
      (h c main_arg3).trans (fold_arg3 m c),
      (h c main_arg4).trans (fold_arg4 m c),
      (h c main_arg5).trans (fold_arg5 m c),
      (h c main_arg6).trans (fold_arg6 m c),
      (h c main_arg7).trans (fold_arg7 m c),
      (h c main_arg8).trans (fold_arg8 m c),
      (h c main_arg9).trans (fold_arg9 m c),
      (h c main_arg10).trans (fold_arg10 m c)⟩)
    (ValueP.run_fold m ρ)

end Cert.ReferenceIdeal.Stages

end
-- ==== Proof.LibSageRow.lean ====
/-
  One node's update in a mean-aggregating graph layer, written row by row over the extended reals, for any finite
  feature index types: the affine part, the division by the row's Euclidean norm (kept away from zero), and the two
  activations. Nothing here mentions a program; the index types are arbitrary finite types.
-/
import Idealize.ShloMosaic.PureOps.Ideal

noncomputable section

open Idealize.ShloMosaic

namespace Cert.Sage

variable {K J : Type} [Fintype K] [Fintype J]

/-- The affine part of one node's update: the neighbour mean `a` through `wl`, the node's own features `h` through
    `wr`, and the bias `b`, added as (neighbour part + own part) + bias. -/
def linRow (a h : K → EReal) (wl wr : K → J → EReal) (b : J → EReal) : J → EReal :=
  fun j => (∑ k, a k * wl k j + ∑ k, h k * wr k j) + b j

/-- The same three terms added as (neighbour part + bias) + own part. Addition of extended reals is commutative and
    associative (also at the infinities), so the two groupings agree with no finiteness assumption. -/
theorem linRow_eq (a h : K → EReal) (wl wr : K → J → EReal) (b : J → EReal) (j : J) :
    (∑ k, a k * wl k j + b j) + ∑ k, h k * wr k j = linRow a h wl wr b j := by
  unfold linRow
  exact add_right_comm _ _ _

/-- A row divided, entry by entry, by the larger of its Euclidean norm and `eps`. -/
def unitRow (eps : EReal) (v : J → EReal) : J → EReal :=
  fun j => Ideal.div (v j) (max (Ideal.sqrt (∑ j', v j' * v j')) eps)

/-- The entrywise maximum with `zero`. -/
def reluRow (zero : EReal) (v : J → EReal) : J → EReal :=
  fun j => max (v j) zero

/-- The row's maximum, folded from `ninf`. -/
def rowMax (ninf : EReal) (v : J → EReal) : EReal :=
  (Finset.univ : Finset J).fold max ninf v

/-- log-softmax of a row, shifted by the row's maximum: `(v j - M) - log (∑ exp (v j' - M))`. -/
def logSoftmaxRow (ninf : EReal) (v : J → EReal) : J → EReal :=
  fun j => (v j - rowMax ninf v) - Ideal.log (∑ j', Ideal.exp (v j' - rowMax ninf v))

/-- Taking the maximum of the fold's starting value with the fold changes nothing: the fold is at least its start. -/
theorem max_rowMax (ninf : EReal) (v : J → EReal) : max ninf (rowMax ninf v) = rowMax ninf v := by
  unfold rowMax
  exact max_eq_right (Finset.le_fold_max (b := ninf) (f := v) (s := Finset.univ) ninf |>.mpr (Or.inl le_rfl))

end Cert.Sage

end
-- ==== Proof.KThread.lean ====
/-
  The contents of the kernel program's buffers at each boundary between its host stretches and its three kernel regions,
  read back to the launch arguments. An argument buffer is written by nothing, so it holds its launch contents at every
  boundary; the two edge-index vectors are computed once, before the first region, and kept; each region's output is
  kept by the host stretch after it; and each host stretch's results (the mean aggregation of the previous layer's
  features over the edges, and the bias laid out as one row) are the same compositions of host operations as the
  reference's, applied to the same operands. Stated for any float instance.
-/
import proofs.«162872_j54039278518913_1_alg».proof.Proof.Gen.KernelIdeal.Frame
import proofs.«162872_j54039278518913_1_alg».proof.Proof.RefReadP
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo Idealize.ShloMosaic.ValueIdx

namespace Cert.KernelIdeal.Thread

open Cert.KernelIdeal Cert.KernelIdeal.Gen

/-- A vector of `n` entries laid out as one row, read at (0, t), is entry `t`. -/
theorem oneRow_apply {α : Type} {n : Nat} (z : (⟨1, ![n]⟩ : Shape).Idx → α)
    (h : (⟨1, ![n]⟩ : Shape).ShapeCasts (⟨2, ![1, n]⟩ : Shape)) (t : Fin n) :
    shapeCast (⟨2, ![1, n]⟩ : Shape) z h (ix2 (0 : Fin 1) t) = z (ix1 t) :=
  (shapeCast_addUnit_apply ![n] z h (ix2 (0 : Fin 1) t)).trans
    (congrArg z (funext fun a => by fin_cases a; rfl))

variable {F : FTy → Type} [FloatOps F]
variable (m : (ℓ : Loc nD τ sig) → Buf (Elt F) ℓ) (ρ : Dev nD → PrngReg)

/-- A host stretch leaves alone every buffer none of its operations writes. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Before the first region: the first host stretch over the launch memory -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  stretch_keeps hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  stretch_keeps hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  stretch_keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  stretch_keeps hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  stretch_keeps hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  stretch_keeps hostOps0
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  stretch_keeps hostOps0
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  stretch_keeps hostOps0
theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  stretch_keeps hostOps0
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  stretch_keeps hostOps0

/-- The source-node vector of the edges, as the reference computes it. -/
theorem W1_v1 (c : Dev nD) : W1 m ρ c (Proc.devRef .tc main_v1) = Cert.ReferenceIdeal.ReadP.val_main_v1 (F := F) (m ((c : Thread nD τ).loc main_arg1)) := by
  show StableHlo.after hostOps0 (W0 m ρ c) (Proc.devRef .tc main_v1) = _
  simp only [hostOps0]
  after_results_simp
  rfl
/-- The destination-node vector of the edges, as the reference computes it. -/
theorem W1_v3 (c : Dev nD) : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  simp only [hostOps0]
  after_results_simp
  rfl
/-- The mean aggregation of the input features over the edges: the reference's composition of the same operations. -/
theorem W1_v22 (c : Dev nD) : W1 m ρ c (Proc.devRef .tc main_v22) = Cert.ReferenceIdeal.ReadP.val_main_v22 (F := F) (m ((c : Thread nD τ).loc main_arg0)) (m ((c : Thread nD τ).loc main_arg1)) := by
  show StableHlo.after hostOps0 (W0 m ρ c) (Proc.devRef .tc main_v22) = _
  simp only [hostOps0]
  after_results_simp
  rfl
/-- The first layer's bias as one row. -/
theorem W1_v23 (c : Dev nD) : W1 m ρ c (Proc.devRef .tc main_v23) = shapeCast S1x64 (m ((c : Thread nD τ).loc main_arg4)) shapeCasts_S64_S1x64 := by
  show StableHlo.after hostOps0 (W0 m ρ c) (Proc.devRef .tc main_v23) = _
  simp only [hostOps0]
  after_results_simp
  rfl

/-! ## After the first region -/

theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_v1 (c : Dev nD) : W2 m ρ c (Proc.devRef .tc main_v1) = Cert.ReferenceIdeal.ReadP.val_main_v1 (F := F) (m ((c : Thread nD τ).loc main_arg1)) :=
  (W2_of_ne m ρ c main_v1 (by decide)).trans (W1_v1 m ρ c)
theorem W2_v3 (c : Dev nD) : W2 m ρ c (Proc.devRef .tc main_v3) = Cert.ReferenceIdeal.ReadP.val_main_v3 (F := F) (m ((c : Thread nD τ).loc main_arg1)) :=
  (W2_of_ne m ρ c main_v3 (by decide)).trans (W1_v3 m ρ c)

/-! ## Before the second region: the second host stretch -/

theorem W3_arg5 (c : Dev nD) : W3 m ρ c (Proc.devRef .tc main_arg5) = m ((c : Thread nD τ).loc main_arg5) :=
  Eq.trans (by
    show StableHlo.after hostOps1 (W2 m ρ c) (Proc.devRef .tc main_arg5) = W2 m ρ c (Proc.devRef .tc main_arg5)
    stretch_keeps hostOps1) (W2_arg5 m ρ c)
theorem W3_arg6 (c : Dev nD) : W3 m ρ c (Proc.devRef .tc main_arg6) = m ((c : Thread nD τ).loc main_arg6) :=
  Eq.trans (by
    show StableHlo.after hostOps1 (W2 m ρ c) (Proc.devRef .tc main_arg6) = W2 m ρ c (Proc.devRef .tc main_arg6)
    stretch_keeps hostOps1) (W2_arg6 m ρ c)
theorem W3_arg8 (c : Dev nD) : W3 m ρ c (Proc.devRef .tc main_arg8) = m ((c : Thread nD τ).loc main_arg8) :=
  Eq.trans (by
    show StableHlo.after hostOps1 (W2 m ρ c) (Proc.devRef .tc main_arg8) = W2 m ρ c (Proc.devRef .tc main_arg8)
    stretch_keeps hostOps1) (W2_arg8 m ρ c)
theorem W3_arg9 (c : Dev nD) : W3 m ρ c (Proc.devRef .tc main_arg9) = m ((c : Thread nD τ).loc main_arg9) :=
  Eq.trans (by
    show StableHlo.after hostOps1 (W2 m ρ c) (Proc.devRef .tc main_arg9) = W2 m ρ c (Proc.devRef .tc main_arg9)
    stretch_keeps hostOps1) (W2_arg9 m ρ c)
theorem W3_arg10 (c : Dev nD) : W3 m ρ c (Proc.devRef .tc main_arg10) = m ((c : Thread nD τ).loc main_arg10) :=
  Eq.trans (by
    show StableHlo.after hostOps1 (W2 m ρ c) (Proc.devRef .tc main_arg10) = W2 m ρ c (Proc.devRef .tc main_arg10)
    stretch_keeps hostOps1) (W2_arg10 m ρ c)
theorem W3_v1 (c : Dev nD) : W3 m ρ c (Proc.devRef .tc main_v1) = Cert.ReferenceIdeal.ReadP.val_main_v1 (F := F) (m ((c : Thread nD τ).loc main_arg1)) :=
  Eq.trans (by
    show StableHlo.after hostOps1 (W2 m ρ c) (Proc.devRef .tc main_v1) = W2 m ρ c (Proc.devRef .tc main_v1)
    stretch_keeps hostOps1) (W2_v1 m ρ c)
theorem W3_v3 (c : Dev nD) : W3 m ρ c (Proc.devRef .tc main_v3) = Cert.ReferenceIdeal.ReadP.val_main_v3 (F := F) (m ((c : Thread nD τ).loc main_arg1)) :=
  Eq.trans (by
    show StableHlo.after hostOps1 (W2 m ρ c) (Proc.devRef .tc main_v3) = W2 m ρ c (Proc.devRef .tc main_v3)
    stretch_keeps hostOps1) (W2_v3 m ρ c)
/-- The first region's output is kept by the stretch after it. -/
theorem W3_v24 (c : Dev nD) : W3 m ρ c (Proc.devRef .tc main_v24) = W2 m ρ c (Proc.devRef .tc main_v24) := by
  show StableHlo.after hostOps1 (W2 m ρ c) (Proc.devRef .tc main_v24) = W2 m ρ c (Proc.devRef .tc main_v24)
  stretch_keeps hostOps1
/-- The mean aggregation of the first layer's output over the edges is the reference's, once the first layer's outputs agree. -/
theorem W3_v43 (c : Dev nD)
    (h24 : W2 m ρ c (Proc.devRef .tc main_v24) = Cert.ReferenceIdeal.ReadP.val_main_v34 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W3 m ρ c (Proc.devRef .tc main_v43) = Cert.ReferenceIdeal.ReadP.val_main_v53 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v43) = _
  simp only [hostOps1]
  after_results_simp
  rw [W2_v1 m ρ c, W2_v3 m ρ c, h24]
  rfl
/-- The second layer's bias as one row. -/
theorem W3_v44 (c : Dev nD) : W3 m ρ c (Proc.devRef .tc main_v44) = shapeCast S1x32 (m ((c : Thread nD τ).loc main_arg7)) shapeCasts_S32_S1x32 := by
  show StableHlo.after hostOps1 (W2 m ρ c) (Proc.devRef .tc main_v44) = _
  simp only [hostOps1]
  after_results_simp
  rw [W2_arg7 m ρ c]
  rfl

/-! ## After the second region -/

theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_v1 (c : Dev nD) : W4 m ρ c (Proc.devRef .tc main_v1) = Cert.ReferenceIdeal.ReadP.val_main_v1 (F := F) (m ((c : Thread nD τ).loc main_arg1)) :=
  (W4_of_ne m ρ c main_v1 (by decide)).trans (W3_v1 m ρ c)
theorem W4_v3 (c : Dev nD) : W4 m ρ c (Proc.devRef .tc main_v3) = Cert.ReferenceIdeal.ReadP.val_main_v3 (F := F) (m ((c : Thread nD τ).loc main_arg1)) :=
  (W4_of_ne m ρ c main_v3 (by decide)).trans (W3_v3 m ρ c)

/-! ## Before the third region: the third host stretch -/

theorem W5_arg8 (c : Dev nD) : W5 m ρ c (Proc.devRef .tc main_arg8) = m ((c : Thread nD τ).loc main_arg8) :=
  Eq.trans (by
    show StableHlo.after hostOps2 (W4 m ρ c) (Proc.devRef .tc main_arg8) = W4 m ρ c (Proc.devRef .tc main_arg8)
    stretch_keeps hostOps2) (W4_arg8 m ρ c)
theorem W5_arg9 (c : Dev nD) : W5 m ρ c (Proc.devRef .tc main_arg9) = m ((c : Thread nD τ).loc main_arg9) :=
  Eq.trans (by
    show StableHlo.after hostOps2 (W4 m ρ c) (Proc.devRef .tc main_arg9) = W4 m ρ c (Proc.devRef .tc main_arg9)
    stretch_keeps hostOps2) (W4_arg9 m ρ c)
/-- The second region's output is kept by the stretch after it. -/
theorem W5_v45 (c : Dev nD) : W5 m ρ c (Proc.devRef .tc main_v45) = W4 m ρ c (Proc.devRef .tc main_v45) := by
  show StableHlo.after hostOps2 (W4 m ρ c) (Proc.devRef .tc main_v45) = W4 m ρ c (Proc.devRef .tc main_v45)
  stretch_keeps hostOps2
/-- The mean aggregation of the second layer's output over the edges is the reference's, once the second layer's outputs agree. -/
theorem W5_v64 (c : Dev nD)
    (h45 : W4 m ρ c (Proc.devRef .tc main_v45) = Cert.ReferenceIdeal.ReadP.val_main_v65 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W5 m ρ c (Proc.devRef .tc main_v64) = Cert.ReferenceIdeal.ReadP.val_main_v84 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v64) = _
  simp only [hostOps2]
  after_results_simp
  rw [W4_v1 m ρ c, W4_v3 m ρ c, h45]
  rfl
/-- The third layer's bias as one row. -/
theorem W5_v65 (c : Dev nD) : W5 m ρ c (Proc.devRef .tc main_v65) = shapeCast S1x10 (m ((c : Thread nD τ).loc main_arg10)) shapeCasts_S10_S1x10 := by
  show StableHlo.after hostOps2 (W4 m ρ c) (Proc.devRef .tc main_v65) = _
  simp only [hostOps2]
  after_results_simp
  rw [W4_arg10 m ρ c]
  rfl

end Cert.KernelIdeal.Thread

end
-- ==== Proof.KLayer0.lean ====
import proofs.«162872_j54039278518913_1_alg».proof.Proof.Gen.KernelIdeal.Frame
import proofs.«162872_j54039278518913_1_alg».proof.Proof.LibSageRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Layer0

open Cert.KernelIdeal Cert.KernelIdeal.Gen

abbrev eps : EReal := Ideal.ofBits .f32 0x2B8CBCCC#32
abbrev zero : EReal := Ideal.ofBits .f32 0x00000000#32
abbrev ninf : EReal := Ideal.ofBits .f32 0xFF800000#32

/-! ## Layout operations of the body that the library does not read at an index -/

section Column
variable {α : Type}

/-- A vector of length `a` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The sum along the lanes of a `[5000, 64]` block, read at row `r`: the sum over the 64 lanes of that row. -/
theorem laneSum_apply (src : FVec Ideal S5000x64 .f32) (h : S5000x64.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ k : Fin 64, src (ix2 r k) :=
  (Ideal.multiReduction_add_single src _ h hφ hacc (ix1 r)).trans
    (Finset.sum_congr rfl fun k _ => congrArg src (funext fun a => match a with | ⟨0, _⟩ => rfl | ⟨1, _⟩ => rfl))

/-! ## The body's matrix product, read at an entry -/

theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A `[5000, 64]` block times a `[64, 64]` matrix, accumulated into zero, read at `(p, q)`: the sum over the
    64 contracted coordinates of the products. -/
theorem matmul_zero_apply (x : FVec Ideal S5000x64 .bf16) (w : FVec Ideal S64x64 .bf16) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The body's value at an entry -/

/-- The affine part of the body: the two products into zero, added, plus the bias row broadcast over the rows. -/
theorem affine_apply (x0 x1 : FVec Ideal S5000x64 .f32) (x2 x3 : FVec Ideal S64x64 .f32) (x4 : FVec Ideal S1x64 .f32)
    (h1 : S5000x64.ShapeCasts S5000x64) (hb : FTy.bits .bf16 < FTy.bits .f32) (h2 : S1x64.ShapeCasts S1x64)
    (h3 : S1x64.Broadcasts S5000x64) (p : Fin 5000) (q : Fin 64) :
    addf (addf
        (matmul dot_S5000x64_S64x64_S5000x64_1_0_0_1_n_n none (truncf .bf16 (shapeCast S5000x64 x0 h1) hb) (truncf .bf16 x2 hb)
          (constant (F := Ideal) S5000x64 .f32 0x00000000#32))
        (matmul dot_S5000x64_S64x64_S5000x64_1_0_0_1_n_n none (truncf .bf16 x1 hb) (truncf .bf16 x3 hb)
          (constant (F := Ideal) S5000x64 .f32 0x00000000#32)))
      (broadcastTo S5000x64 (shapeCast S1x64 x4 h2) h3) (ix2 p q)
      = Sage.linRow (fun k : Fin 64 => x0 (ix2 p k)) (fun k : Fin 64 => x1 (ix2 p k))
          (fun (k : Fin 64) (j : Fin 64) => x2 (ix2 k j)) (fun (k : Fin 64) (j : Fin 64) => x3 (ix2 k j))
          (fun j : Fin 64 => x4 (ix2 (0 : Fin 1) j)) q := by
  rw [shapeCast_self, shapeCast_self, addf_apply, addf_apply, matmul_zero_apply, matmul_zero_apply,
    broadcastTo_1b_ab_apply]
  rfl

/-- Division by the row norm kept above `eps`, then the maximum with zero, of any `[5000, 64]` block `L`. -/
theorem unit_relu_apply (L : FVec Ideal S5000x64 .f32) (hr : S5000x64.Reduces [1] S5000) (hc : S5000.ShapeCasts S5000x1)
    (hb : S5000x1.Broadcasts S5000x64) (hφ : FKind.Formats .f32) (hacc : (0x00000000#32 : BitVec 32) = 0x00000000#32)
    (p : Fin 5000) (q : Fin 64) :
    maximumf (divf L (broadcastTo S5000x64
        (maximumf (sqrt (shapeCast S5000x1 (multiReduction (F := Ideal) .add [1] S5000 (mulf L L) 0x00000000#32 hr hφ hacc) hc))
          (broadcast S5000x1 (Scalar.ofBits (F := Ideal) .f32 0x2B8CBCCC#32))) hb))
      (broadcast S5000x64 (Scalar.ofBits (F := Ideal) .f32 0x00000000#32)) (ix2 p q)
      = Sage.reluRow zero (Sage.unitRow eps (fun j : Fin 64 => L (ix2 p j))) q := by
  rw [maximumf_apply, divf_apply, broadcastTo_a1_ab_apply, maximumf_apply]
  show max (Ideal.div (L (ix2 p q)) (max (Ideal.sqrt (shapeCast S5000x1 (multiReduction (F := Ideal) .add [1] S5000 (mulf L L) 0x00000000#32 hr hφ hacc) hc (ix2 p (0 : Fin 1)))) eps)) zero = _
  rw [shapeCast_a_a1_apply, laneSum_apply]
  rfl

theorem pay_apply (x0 x1 : FVec Ideal S5000x64 .f32) (x2 x3 : FVec Ideal S64x64 .f32) (x4 : FVec Ideal S1x64 .f32)
    (p : Fin 5000) (q : Fin 64) :
    k0_pay1 (F := Ideal) x0 x1 x2 x3 x4 (ix2 p q)
      = Sage.reluRow zero (Sage.unitRow eps (Sage.linRow (fun k : Fin 64 => x0 (ix2 p k)) (fun k : Fin 64 => x1 (ix2 p k))
          (fun (k : Fin 64) (j : Fin 64) => x2 (ix2 k j)) (fun (k : Fin 64) (j : Fin 64) => x3 (ix2 k j))
          (fun j : Fin 64 => x4 (ix2 (0 : Fin 1) j)))) q := by
  unfold k0_pay1
  dsimp only
  refine (unit_relu_apply _ _ _ _ _ _ p q).trans ?_
  refine congrArg (fun v : Fin 64 → EReal => Sage.reluRow zero (Sage.unitRow eps v) q) (funext fun j => ?_)
  exact affine_apply x0 x1 x2 x3 x4 _ _ _ _ p j

variable (V : (c : Dev nD) → (b : Ref sig .tc) → Buf (Elt Ideal) ((c : Thread nD τ).loc b))

/-! ## From the blocks to the array -/

theorem zero_offsets : (![0, 0] : Fin 2 → Nat) = fun _ => 0 := funext fun a => by fin_cases a <;> rfl

/-- Entry `(r, j)` of the layer's result, from the arrays as the region finds them. -/
def layerRow (c : Dev nD) (r : Fin 100000) (j : Fin 64) : EReal :=
  Sage.reluRow zero (Sage.unitRow eps (Sage.linRow
      (fun k : Fin 64 => (V c main_v22 : FVec Ideal S100000x64 .f32) (ix2 r k))
      (fun k : Fin 64 => (V c main_arg0 : FVec Ideal S100000x64 .f32) (ix2 r k))
      (fun (k : Fin 64) (j : Fin 64) => (V c main_arg2 : FVec Ideal S64x64 .f32) (ix2 k j))
      (fun (k : Fin 64) (j : Fin 64) => (V c main_arg3 : FVec Ideal S64x64 .f32) (ix2 k j))
      (fun j : Fin 64 => (V c main_v23 : FVec Ideal S1x64 .f32) (ix2 (0 : Fin 1) j)))) j

/-- The whole result array as one function of its index. -/
def layerArr (c : Dev nD) : S100000x64.Idx → EReal := fun i => layerRow V c (i 0) (i 1)

/-- The printed index maps, decided over the twenty points: the two data windows and the result window sit at block
    `(t, 0)`, the weights and the bias at block `(0, 0)`. -/
theorem block_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row under row `p` of point `t`'s block. -/
def blockRow (t : Fin cfg0.N) (p : Fin 5000) : Fin 100000 :=
  ⟨5000 * t.val + p.val, by have h : t.val < 20 := lt_of_lt_of_eq t.isLt N_0; have := p.isLt; omega⟩

theorem emb_rows0 (t : Fin cfg0.N) (p : Fin 5000) (k : Fin 64) :
    (((cfg0.win 0).blk t).view.emb (ix2 p k) : S100000x64.Idx) = ix2 (blockRow t p) k := by
  obtain ⟨e0, e1, -⟩ := block_index_facts t
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega

theorem emb_rows1 (t : Fin cfg0.N) (p : Fin 5000) (k : Fin 64) :
    (((cfg0.win 1).blk t).view.emb (ix2 p k) : S100000x64.Idx) = ix2 (blockRow t p) k := by
  obtain ⟨-, -, e0, e1, -⟩ := block_index_facts t
  funext a; apply Fin.ext
  match a with
  | ⟨0, _⟩ => show win0_1.index t (0 : Fin 2) * 5000 + 1 * p.val = 5000 * t.val + p.val; omega
  | ⟨1, _⟩ => show win0_1.index t (1 : Fin 2) * 64 + 1 * k.val = k.val; omega

theorem emb_whole2 (t : Fin cfg0.N) (k : Fin 64) (j : Fin 64) :
    (((cfg0.win 2).blk t).view.emb (ix2 k j) : S64x64.Idx) = ix2 k j := by
  obtain ⟨-, -, -, -, e0, e1, -⟩ := block_index_facts t
  funext a; apply Fin.ext
  match a with
  | ⟨0, _⟩ => show win0_2.index t (0 : Fin 2) * 64 + 1 * k.val = k.val; omega
  | ⟨1, _⟩ => show win0_2.index t (1 : Fin 2) * 64 + 1 * j.val = j.val; omega

theorem emb_whole3 (t : Fin cfg0.N) (k : Fin 64) (j : Fin 64) :
    (((cfg0.win 3).blk t).view.emb (ix2 k j) : S64x64.Idx) = ix2 k j := by
  obtain ⟨-, -, -, -, -, -, e0, e1, -⟩ := block_index_facts t
  funext a; apply Fin.ext
  match a with
  | ⟨0, _⟩ => show win0_3.index t (0 : Fin 2) * 64 + 1 * k.val = k.val; omega
  | ⟨1, _⟩ => show win0_3.index t (1 : Fin 2) * 64 + 1 * j.val = j.val; omega

theorem emb_whole4 (t : Fin cfg0.N) (u : Fin 1) (j : Fin 64) :
    (((cfg0.win 4).blk t).view.emb (ix2 u j) : S1x64.Idx) = ix2 u j := by
  obtain ⟨-, -, -, -, -, -, -, -, e0, e1, -⟩ := block_index_facts t
  funext a; apply Fin.ext
  match a with
  | ⟨0, _⟩ => show win0_4.index t (0 : Fin 2) * 1 + 1 * u.val = u.val; omega
  | ⟨1, _⟩ => show win0_4.index t (1 : Fin 2) * 64 + 1 * j.val = j.val; omega

theorem emb_rows5 (t : Fin cfg0.N) (p : Fin 5000) (q : Fin 64) :
    (((cfg0.win 5).blk t).view.emb (ix2 p q) : S100000x64.Idx) = ix2 (blockRow t p) q := by
  obtain ⟨-, -, -, -, -, -, -, -, -, -, e0, e1⟩ := block_index_facts t
  funext a; apply Fin.ext
  match a with
  | ⟨0, _⟩ => show win0_5.index t (0 : Fin 2) * 5000 + 1 * p.val = 5000 * t.val + p.val; omega
  | ⟨1, _⟩ => show win0_5.index t (1 : Fin 2) * 64 + 1 * q.val = q.val; omega

/-- Each input block, read at an entry, is its array read at the entry the block's rectangle puts there. -/
theorem iblk0_0_apply (c : Dev nD) (t : Fin cfg0.N) (p : Fin 5000) (k : Fin 64) :
    (iblk0 V c 0 t : FVec Ideal S5000x64 .f32) (ix2 p k) = (V c main_v22 : FVec Ideal S100000x64 .f32) (ix2 (blockRow t p) k) := by
  show (V c main_v22 : FVec Ideal S100000x64 .f32) (((cfg0.win 0).blk t).view.emb (ix2 p k)) = _
  rw [emb_rows0]
theorem iblk0_1_apply (c : Dev nD) (t : Fin cfg0.N) (p : Fin 5000) (k : Fin 64) :
    (iblk0 V c 1 t : FVec Ideal S5000x64 .f32) (ix2 p k) = (V c main_arg0 : FVec Ideal S100000x64 .f32) (ix2 (blockRow t p) k) := by
  show (V c main_arg0 : FVec Ideal S100000x64 .f32) (((cfg0.win 1).blk t).view.emb (ix2 p k)) = _
  rw [emb_rows1]
theorem iblk0_2_apply (c : Dev nD) (t : Fin cfg0.N) (k : Fin 64) (j : Fin 64) :
    (iblk0 V c 2 t : FVec Ideal S64x64 .f32) (ix2 k j) = (V c main_arg2 : FVec Ideal S64x64 .f32) (ix2 k j) := by
  show (V c main_arg2 : FVec Ideal S64x64 .f32) (((cfg0.win 2).blk t).view.emb (ix2 k j)) = _
  rw [emb_whole2]
theorem iblk0_3_apply (c : Dev nD) (t : Fin cfg0.N) (k : Fin 64) (j : Fin 64) :
    (iblk0 V c 3 t : FVec Ideal S64x64 .f32) (ix2 k j) = (V c main_arg3 : FVec Ideal S64x64 .f32) (ix2 k j) := by
  show (V c main_arg3 : FVec Ideal S64x64 .f32) (((cfg0.win 3).blk t).view.emb (ix2 k j)) = _
  rw [emb_whole3]
theorem iblk0_4_apply (c : Dev nD) (t : Fin cfg0.N) (u : Fin 1) (j : Fin 64) :
    (iblk0 V c 4 t : FVec Ideal S1x64 .f32) (ix2 u j) = (V c main_v23 : FVec Ideal S1x64 .f32) (ix2 u j) := by
  show (V c main_v23 : FVec Ideal S1x64 .f32) (((cfg0.win 4).blk t).view.emb (ix2 u j)) = _
  rw [emb_whole4]

/-- What the write-back at a point moves of a whole block is the block. -/
theorem cut5_apply (t : Fin cfg0.N) (X : S5000x64.Idx → EReal) (p : Fin 5000) (q : Fin 64) :
    (cfg0.win 5).cut (grid0.coords t) X (ix2 p q) = X (ix2 p q) := rfl

/-- A whole-array function read through point `t`'s block of the result window. -/
theorem read5_apply (t : Fin cfg0.N) (G : S100000x64.Idx → EReal) (p : Fin 5000) (q : Fin 64) :
    ((cfg0.win 5).blk t).view.read (Elt Ideal) G (ix2 p q) = G (ix2 (blockRow t p) q) := by
  show G (((cfg0.win 5).blk t).view.emb (ix2 p q)) = _
  rw [emb_rows5]

/-- WHAT POINT `t` WRITES BACK is block `t` of the layer's result. -/
theorem flushed_eq (c : Dev nD) (t : Fin cfg0.N) :
    (dat0 V c).flushed 5 t = ((cfg0.win 5).blk t).view.read (Elt Ideal) (layerArr V c) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets,
    View.ld_unit_zero (S := S1x64) zero_offsets]
  refine funext fun (y : S5000x64.Idx) => ?_
  obtain ⟨p, q, rfl⟩ : ∃ (p : Fin 5000) (q : Fin 64), y = ix2 p q := ⟨y 0, y 1, eq_ix2 y⟩
  refine (cut5_apply t _ p q).trans ?_
  refine (pay_apply (iblk0 V c 0 t) (iblk0 V c 1 t) (iblk0 V c 2 t) (iblk0 V c 3 t) (iblk0 V c 4 t) p q).trans ?_
  refine Eq.trans ?_ (read5_apply t (layerArr V c) p q).symm
  show _ = layerRow V c (blockRow t p) q
  unfold layerRow
  have e0 : (fun k : Fin 64 => (iblk0 V c 0 t : FVec Ideal S5000x64 .f32) (ix2 p k))
      = fun k : Fin 64 => (V c main_v22 : FVec Ideal S100000x64 .f32) (ix2 (blockRow t p) k) :=
    funext fun k => iblk0_0_apply V c t p k
  have e1 : (fun k : Fin 64 => (iblk0 V c 1 t : FVec Ideal S5000x64 .f32) (ix2 p k))
      = fun k : Fin 64 => (V c main_arg0 : FVec Ideal S100000x64 .f32) (ix2 (blockRow t p) k) :=
    funext fun k => iblk0_1_apply V c t p k
  have e2 : (fun (k : Fin 64) (j : Fin 64) => (iblk0 V c 2 t : FVec Ideal S64x64 .f32) (ix2 k j))
      = fun (k : Fin 64) (j : Fin 64) => (V c main_arg2 : FVec Ideal S64x64 .f32) (ix2 k j) :=
    funext fun k => funext fun j => iblk0_2_apply V c t k j
  have e3 : (fun (k : Fin 64) (j : Fin 64) => (iblk0 V c 3 t : FVec Ideal S64x64 .f32) (ix2 k j))
      = fun (k : Fin 64) (j : Fin 64) => (V c main_arg3 : FVec Ideal S64x64 .f32) (ix2 k j) :=
    funext fun k => funext fun j => iblk0_3_apply V c t k j
  have e4 : (fun j : Fin 64 => (iblk0 V c 4 t : FVec Ideal S1x64 .f32) (ix2 (0 : Fin 1) j))
      = fun j : Fin 64 => (V c main_v23 : FVec Ideal S1x64 .f32) (ix2 (0 : Fin 1) j) :=
    funext fun j => iblk0_4_apply V c t 0 j
  rw [e0, e1, e2, e3, e4]

/-- An index of the array is in point `t`'s block iff each coordinate is in the block's range on its axis. -/
theorem mem_block5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Every index of the array lies in the block of the point its row divided by 5000 names. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := block_index_facts t
  refine ⟨t, flush0_5 t, ?_⟩
  rw [mem_block5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE ARRAY after the region: the layer's result, entry by entry. -/
theorem final (c : Dev nD) : (dat0 V c).arrAt 5 cfg0.N = layerArr V c :=
  (dat0 V c).arrAt_eq_of_cover 5 (layerArr V c) (fun t _ => flushed_eq V c t) covered

theorem value (c : Dev nD) (r : Fin 100000) (j : Fin 64) :
    (dat0 (F := Ideal) V c).arrAt 5 cfg0.N (ix2 r j)
      = Sage.reluRow zero (Sage.unitRow eps (Sage.linRow
          (fun k : Fin 64 => (V c main_v22 : FVec Ideal S100000x64 .f32) (ix2 r k))
          (fun k : Fin 64 => (V c main_arg0 : FVec Ideal S100000x64 .f32) (ix2 r k))
          (fun (k : Fin 64) (j : Fin 64) => (V c main_arg2 : FVec Ideal S64x64 .f32) (ix2 k j))
          (fun (k : Fin 64) (j : Fin 64) => (V c main_arg3 : FVec Ideal S64x64 .f32) (ix2 k j))
          (fun j : Fin 64 => (V c main_v23 : FVec Ideal S1x64 .f32) (ix2 (0 : Fin 1) j)))) j := by
  exact congrFun (final V c) (ix2 r j)

end Cert.KernelIdeal.Layer0

end
-- ==== Proof.KLayer1.lean ====
import proofs.«162872_j54039278518913_1_alg».proof.Proof.Gen.KernelIdeal.Frame
import proofs.«162872_j54039278518913_1_alg».proof.Proof.LibSageRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Layer1

open Cert.KernelIdeal Cert.KernelIdeal.Gen

abbrev eps : EReal := Ideal.ofBits .f32 0x2B8CBCCC#32
abbrev zero : EReal := Ideal.ofBits .f32 0x00000000#32
abbrev ninf : EReal := Ideal.ofBits .f32 0xFF800000#32

/-! ## The two products: a contraction over the 64 shared features, read at one entry -/

theorem lhs_k1_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_k1_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_k1_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_k1_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A product into the zero accumulator, at entry (p, q): the sum over the 64 shared features of row p of the left
    factor against column q of the right factor. -/
theorem mm_apply {φ₁ φ₂ : FTy} (a : FVec Ideal S5000x64 φ₁) (w : FVec Ideal S64x32 φ₂) (p : Fin 5000) (q : Fin 32) :
    matmul (F := Ideal) dot_S5000x64_S64x32_S5000x32_1_0_0_1_n_n none a w (constant (F := Ideal) S5000x32 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs_k1_0 _ _
    | ⟨1, _⟩ => exact (lhs_k1_1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs_k1_0 _ _).trans hk
    | ⟨1, _⟩ => exact rhs_k1_1 _ _)
  rw [el, er]

/-! ## The layout steps of the body, each read at one entry -/

/-- The lane sum of a 5000 × 32 block into the zero word, at row p: the sum of that row's 32 entries. -/
theorem rowSum_apply (v : FVec Ideal S5000x32 .f32) (h : S5000x32.Reduces [1] S5000) (hφ : FKind.Formats .f32)
    (hacc : (0x00000000#32 : BitVec 32) = 0x00000000#32) (p : Fin 5000) :
    multiReduction (F := Ideal) .add [1] S5000 v 0x00000000#32 h hφ hacc (ix1 p) = ∑ k : Fin 32, v (ix2 p k) :=
  (Ideal.multiReduction_add_single v _ h hφ hacc (ix1 p)).trans
    (Finset.sum_congr rfl fun k _ => congrArg v (funext fun a => Fin.ext (by
      match a with
      | ⟨0, _⟩ => rfl
      | ⟨1, _⟩ => rfl)))

/-- A length-5000 vector viewed as a 5000 × 1 column reads, at (p, u), the vector at p. -/
theorem col_of_vec_apply {α : Type} (v : S5000.Idx → α) (h : S5000.ShapeCasts S5000x1) (p : Fin 5000) (u : Fin 1) :
    shapeCast S5000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 5000 × 1 column broadcast along 32 lanes reads, at (p, q), the column at row p. -/
theorem bcast_col_apply {α : Type} (v : S5000x1.Idx → α) (h : S5000x1.Broadcasts S5000x32) (p : Fin 5000) (q : Fin 32) :
    broadcastTo S5000x32 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else q.val
    rw [if_pos rfl]

/-! ## The body's value, entry by entry -/

/-- The affine stage at entry (p, q): both products plus the bias row, as the row-wise specification writes it. -/
theorem lin_apply (x0 x1 : FVec Ideal S5000x64 .f32) (x2 x3 : FVec Ideal S64x32 .f32) (x4 : FVec Ideal S1x32 .f32)
    (hc : S5000x64.ShapeCasts S5000x64) (hb : FTy.bits .bf16 < FTy.bits .f32) (hc' : S1x32.ShapeCasts S1x32)
    (hbr : S1x32.Broadcasts S5000x32) (p : Fin 5000) (q : Fin 32) :
    addf (addf
        (matmul (F := Ideal) dot_S5000x64_S64x32_S5000x32_1_0_0_1_n_n none (truncf .bf16 (shapeCast S5000x64 x0 hc) hb) (truncf .bf16 x2 hb) (constant (F := Ideal) S5000x32 .f32 0x00000000#32))
        (matmul (F := Ideal) dot_S5000x64_S64x32_S5000x32_1_0_0_1_n_n none (truncf .bf16 (shapeCast S5000x64 x1 hc) hb) (truncf .bf16 x3 hb) (constant (F := Ideal) S5000x32 .f32 0x00000000#32)))
      (broadcastTo S5000x32 (shapeCast S1x32 x4 hc') hbr) (ix2 p q)
    = Sage.linRow (fun k : Fin 64 => x0 (ix2 p k)) (fun k : Fin 64 => x1 (ix2 p k))
          (fun (k : Fin 64) (j : Fin 32) => x2 (ix2 k j)) (fun (k : Fin 64) (j : Fin 32) => x3 (ix2 k j))
          (fun j : Fin 32 => x4 (ix2 (0 : Fin 1) j)) q := by
  rw [shapeCast_self, shapeCast_self, shapeCast_self]
  refine (addf_apply _ _ _).trans ?_
  refine (congrArg₂ (· + ·) ((addf_apply _ _ _).trans (congrArg₂ (· + ·) (mm_apply _ _ p q) (mm_apply _ _ p q)))
    (broadcastTo_1b_ab_apply x4 hbr p q)).trans ?_
  rfl

/-- The normalising stage over ANY 5000 × 32 value L, at entry (p, q): L's entry divided by the larger of the row's
    Euclidean norm and the small constant, then clamped below at zero. -/
theorem norm_apply (L : FVec Ideal S5000x32 .f32) (hr : S5000x32.Reduces [1] S5000) (hφ : FKind.Formats .f32)
    (hacc : (0x00000000#32 : BitVec 32) = 0x00000000#32) (hc : S5000.ShapeCasts S5000x1) (hbr : S5000x1.Broadcasts S5000x32)
    (p : Fin 5000) (q : Fin 32) :
    maximumf (divf L (broadcastTo S5000x32
        (maximumf (sqrt (shapeCast S5000x1 (multiReduction (F := Ideal) .add [1] S5000 (mulf L L) 0x00000000#32 hr hφ hacc) hc))
          (broadcast S5000x1 (Scalar.ofBits (F := Ideal) .f32 0x2B8CBCCC#32))) hbr))
      (broadcast S5000x32 (Scalar.ofBits (F := Ideal) .f32 0x00000000#32)) (ix2 p q)
    = Sage.reluRow zero (Sage.unitRow eps (fun j : Fin 32 => L (ix2 p j))) q := by
  show max (Ideal.div (L (ix2 p q)) (broadcastTo S5000x32 _ hbr (ix2 p q))) zero = _
  rw [bcast_col_apply]
  show max (Ideal.div (L (ix2 p q)) (max (Ideal.sqrt (shapeCast S5000x1 _ hc (ix2 p (0 : Fin 1)))) eps)) zero = _
  rw [col_of_vec_apply, rowSum_apply]
  rfl

theorem pay_apply (x0 x1 : FVec Ideal S5000x64 .f32) (x2 x3 : FVec Ideal S64x32 .f32) (x4 : FVec Ideal S1x32 .f32)
    (p : Fin 5000) (q : Fin 32) :
    k1_pay1 (F := Ideal) x0 x1 x2 x3 x4 (ix2 p q)
      = Sage.reluRow zero (Sage.unitRow eps (Sage.linRow (fun k : Fin 64 => x0 (ix2 p k)) (fun k : Fin 64 => x1 (ix2 p k))
          (fun (k : Fin 64) (j : Fin 32) => x2 (ix2 k j)) (fun (k : Fin 64) (j : Fin 32) => x3 (ix2 k j))
          (fun j : Fin 32 => x4 (ix2 (0 : Fin 1) j)))) q := by
  unfold k1_pay1
  exact (norm_apply _ _ _ _ _ _ p q).trans
    (congrArg (fun v => Sage.reluRow zero (Sage.unitRow eps v) q)
      (funext fun j => lin_apply x0 x1 x2 x3 x4 _ _ _ _ p j))

variable (V : (c : Dev nD) → (b : Ref sig .tc) → Buf (Elt Ideal) ((c : Thread nD τ).loc b))

/-! ## From the blocks to the result array -/

theorem zero_offsets : (![0, 0] : Fin 2 → Nat) = fun _ => 0 := funext fun a => by fin_cases a <;> rfl

/-- One row of the layer from whole arrays: row r of the two data arrays through the two weights, plus the bias,
    normalised and clamped, at lane j. -/
def rowFn (a0 a1 : FVec Ideal S100000x64 .f32) (w0 w1 : FVec Ideal S64x32 .f32) (b : FVec Ideal S1x32 .f32)
    (r : Fin 100000) (j : Fin 32) : EReal :=
  Sage.reluRow zero (Sage.unitRow eps (Sage.linRow (fun k : Fin 64 => a0 (ix2 r k)) (fun k : Fin 64 => a1 (ix2 r k))
    (fun (k : Fin 64) (j : Fin 32) => w0 (ix2 k j)) (fun (k : Fin 64) (j : Fin 32) => w1 (ix2 k j))
    (fun j : Fin 32 => b (ix2 (0 : Fin 1) j)))) j

/-- The result array as one function of the entry contents. -/
def G1 (c : Dev nD) : S100000x32.Idx → EReal := fun i =>
  rowFn (V c main_v43) (V c main_v24) (V c main_arg5) (V c main_arg6) (V c main_v44) ⟨(i 0).val, idx2_lt0 i⟩ ⟨(i 1).val, idx2_lt1 i⟩

/-- The printed index maps over the 20 grid points: the two data windows and the result window sit at row block t,
    column block 0; the weights and the bias stay at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ### Each input block read off its array -/

/-- Row p, column k of the first data window's block at point t is row 5000·t + p, column k of its array. -/
theorem blk0_apply (c : Dev nD) (t : Fin cfg1.N) (p : Fin 5000) (k : Fin 64) (r : Fin 100000) (hr : r.val = 5000 * t.val + p.val) :
    iblk1 V c 0 t (ix2 p k) = (V c main_v43 : FVec Ideal S100000x64 .f32) (ix2 r k) := by
  obtain ⟨e0, e1, -⟩ := idx_facts1 t
  unfold iblk1
  rw [View.read_apply]
  show V c main_v43 _ = V c main_v43 _
  congr 1
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- The same for the second data window. -/
theorem blk1_apply (c : Dev nD) (t : Fin cfg1.N) (p : Fin 5000) (k : Fin 64) (r : Fin 100000) (hr : r.val = 5000 * t.val + p.val) :
    iblk1 V c 1 t (ix2 p k) = (V c main_v24 : FVec Ideal S100000x64 .f32) (ix2 r k) := by
  obtain ⟨-, -, e0, e1, -⟩ := idx_facts1 t
  unfold iblk1
  rw [View.read_apply]
  show V c main_v24 _ = V c main_v24 _
  congr 1
  funext a
  apply Fin.ext
  match a with
  | ⟨0, _⟩ => show win1_1.index t (0 : Fin 2) * 5000 + 1 * p.val = r.val; omega
  | ⟨1, _⟩ => show win1_1.index t (1 : Fin 2) * 64 + 1 * k.val = k.val; omega

/-- The first weight window's block is the whole weight array at every point. -/
theorem blk2_apply (c : Dev nD) (t : Fin cfg1.N) (k : Fin 64) (j : Fin 32) :
    iblk1 V c 2 t (ix2 k j) = (V c main_arg5 : FVec Ideal S64x32 .f32) (ix2 k j) := by
  obtain ⟨-, -, -, -, e0, e1, -⟩ := idx_facts1 t
  unfold iblk1
  rw [View.read_apply]
  show V c main_arg5 _ = V c main_arg5 _
  congr 1
  funext a
  apply Fin.ext
  match a with
  | ⟨0, _⟩ => show win1_2.index t (0 : Fin 2) * 64 + 1 * k.val = k.val; omega
  | ⟨1, _⟩ => show win1_2.index t (1 : Fin 2) * 32 + 1 * j.val = j.val; omega

/-- So is the second weight window's. -/
theorem blk3_apply (c : Dev nD) (t : Fin cfg1.N) (k : Fin 64) (j : Fin 32) :
    iblk1 V c 3 t (ix2 k j) = (V c main_arg6 : FVec Ideal S64x32 .f32) (ix2 k j) := by
  obtain ⟨-, -, -, -, -, -, e0, e1, -⟩ := idx_facts1 t
  unfold iblk1
  rw [View.read_apply]
  show V c main_arg6 _ = V c main_arg6 _
  congr 1
  funext a
  apply Fin.ext
  match a with
  | ⟨0, _⟩ => show win1_3.index t (0 : Fin 2) * 64 + 1 * k.val = k.val; omega
  | ⟨1, _⟩ => show win1_3.index t (1 : Fin 2) * 32 + 1 * j.val = j.val; omega

/-- And the bias window's block is the whole bias row. -/
theorem blk4_apply (c : Dev nD) (t : Fin cfg1.N) (u : Fin 1) (j : Fin 32) :
    iblk1 V c 4 t (ix2 u j) = (V c main_v44 : FVec Ideal S1x32 .f32) (ix2 u j) := by
  obtain ⟨-, -, -, -, -, -, -, -, e0, e1, -⟩ := idx_facts1 t
  unfold iblk1
  rw [View.read_apply]
  show V c main_v44 _ = V c main_v44 _
  congr 1
  funext a
  apply Fin.ext
  match a with
  | ⟨0, _⟩ => show win1_4.index t (0 : Fin 2) * 1 + 1 * u.val = u.val; omega
  | ⟨1, _⟩ => show win1_4.index t (1 : Fin 2) * 32 + 1 * j.val = j.val; omega

/-! ### What a point writes back -/

/-- The result window's block index (p, q) at point t sits at row 5000·t + p, column q of the result array. -/
theorem emb5_apply (t : Fin cfg1.N) (p : Fin 5000) (q : Fin 32) (r : Fin 100000) (hr : r.val = 5000 * t.val + p.val) :
    ((cfg1.win 5).blk t).view.emb (ix2 p q) = (ix2 r q : S100000x32.Idx) := by
  obtain ⟨-, -, -, -, -, -, -, -, -, -, e0, e1⟩ := idx_facts1 t
  funext a
  apply Fin.ext
  match a with
  | ⟨0, _⟩ => show win1_5.index t (0 : Fin 2) * 5000 + 1 * p.val = r.val; omega
  | ⟨1, _⟩ => show win1_5.index t (1 : Fin 2) * 32 + 1 * q.val = q.val; omega

/-- The body's stored value at (p, q), over ANY five blocks that are the stated rows of five arrays, is the row
    function of those arrays at row r. -/
theorem pay_rows (x0 x1 : FVec Ideal S5000x64 .f32) (x2 x3 : FVec Ideal S64x32 .f32) (x4 : FVec Ideal S1x32 .f32)
    (a0 a1 : FVec Ideal S100000x64 .f32) (w0 w1 : FVec Ideal S64x32 .f32) (b : FVec Ideal S1x32 .f32)
    (p : Fin 5000) (q : Fin 32) (r : Fin 100000)
    (h0 : ∀ k : Fin 64, x0 (ix2 p k) = a0 (ix2 r k)) (h1 : ∀ k : Fin 64, x1 (ix2 p k) = a1 (ix2 r k))
    (h2 : ∀ (k : Fin 64) (j : Fin 32), x2 (ix2 k j) = w0 (ix2 k j)) (h3 : ∀ (k : Fin 64) (j : Fin 32), x3 (ix2 k j) = w1 (ix2 k j))
    (h4 : ∀ j : Fin 32, x4 (ix2 (0 : Fin 1) j) = b (ix2 (0 : Fin 1) j)) :
    k1_pay1 (F := Ideal) x0 x1 x2 x3 x4 (ix2 p q) = rowFn a0 a1 w0 w1 b r q := by
  rw [pay_apply]
  unfold rowFn
  rw [funext h0, funext h1, funext fun k => funext (h2 k), funext fun k => funext (h3 k), funext h4]

set_option maxHeartbeats 400000 in
/-- What point t writes back is block t of the one whole-array function. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero zero_offsets]
  simp only [View.ld_unit_zero (S := S5000x64) zero_offsets, View.ld_unit_zero (S := S64x32) zero_offsets, View.ld_unit_zero (S := S1x32) zero_offsets]
  funext y
  obtain ⟨p, q, rfl⟩ : ∃ (p : Fin 5000) (q : Fin 32), y = (ix2 p q : S5000x32.Idx) :=
    ⟨(y : S5000x32.Idx) 0, (y : S5000x32.Idx) 1, eq_ix2 (y : S5000x32.Idx)⟩
  have hlt : 5000 * t.val + p.val < 100000 := by have := t.isLt; have : cfg1.N = 20 := N_1; omega
  rw [View.read_apply, emb5_apply t p q ⟨5000 * t.val + p.val, hlt⟩ rfl]
  show k1_pay1 (F := Ideal) (iblk1 V c 0 t) (iblk1 V c 1 t) (iblk1 V c 2 t) (iblk1 V c 3 t) (iblk1 V c 4 t) (ix2 p q)
    = rowFn (V c main_v43) (V c main_v24) (V c main_arg5) (V c main_arg6) (V c main_v44) ⟨5000 * t.val + p.val, hlt⟩ q
  exact pay_rows (iblk1 V c 0 t) (iblk1 V c 1 t) (iblk1 V c 2 t) (iblk1 V c 3 t) (iblk1 V c 4 t)
    (V c main_v43) (V c main_v24) (V c main_arg5) (V c main_arg6) (V c main_v44) p q ⟨5000 * t.val + p.val, hlt⟩
    (fun k => blk0_apply V c t p k _ rfl) (fun k => blk1_apply V c t p k _ rfl)
    (fun k j => blk2_apply V c t k j) (fun k j => blk3_apply V c t k j) (fun j => blk4_apply V c t 0 j)

/-! ### The blocks cover the array -/

/-- An index of the result array is in point t's block iff each coordinate is in the block's range on its axis. -/
theorem mem_blk5 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v45).slice (win1_5.rect t)).set ↔ _
  rw [View.set_slice_whole, Rect.mem_set_unit]
  exact Iff.rfl

/-- Row r of the result array lies in the block of the point r / 5000, and every point writes its block back. -/
theorem cover5 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 5000 :=
    ⟨⟨(i 0).val / 5000, by have : cfg1.N = 20 := N_1; omega⟩, rfl⟩
  obtain ⟨-, -, -, -, -, -, -, -, -, -, e0, e1⟩ := idx_facts1 t
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- So the result array after the run is the one whole-array function. -/
theorem final5 (c : Dev nD) : (dat1 (F := Ideal) V c).arrAt 5 cfg1.N = G1 V c :=
  (dat1 (F := Ideal) V c).arrAt_eq_of_cover 5 (G1 V c) (fun t _ => flushed1_eq V c t) cover5

theorem value (c : Dev nD) (r : Fin 100000) (j : Fin 32) :
    (dat1 (F := Ideal) V c).arrAt 5 cfg1.N (ix2 r j)
      = Sage.reluRow zero (Sage.unitRow eps (Sage.linRow
          (fun k : Fin 64 => (V c main_v43 : FVec Ideal S100000x64 .f32) (ix2 r k))
          (fun k : Fin 64 => (V c main_v24 : FVec Ideal S100000x64 .f32) (ix2 r k))
          (fun (k : Fin 64) (j : Fin 32) => (V c main_arg5 : FVec Ideal S64x32 .f32) (ix2 k j))
          (fun (k : Fin 64) (j : Fin 32) => (V c main_arg6 : FVec Ideal S64x32 .f32) (ix2 k j))
          (fun j : Fin 32 => (V c main_v44 : FVec Ideal S1x32 .f32) (ix2 (0 : Fin 1) j)))) j := by
  rw [final5]
  rfl

end Cert.KernelIdeal.Layer1

end
-- ==== Proof.KLayer2.lean ====
import proofs.«162872_j54039278518913_1_alg».proof.Proof.Gen.KernelIdeal.Frame
import proofs.«162872_j54039278518913_1_alg».proof.Proof.LibSageRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Layer2

open Cert.KernelIdeal Cert.KernelIdeal.Gen

abbrev eps : EReal := Ideal.ofBits .f32 0x2B8CBCCC#32
abbrev zero : EReal := Ideal.ofBits .f32 0x00000000#32
abbrev ninf : EReal := Ideal.ofBits .f32 0xFF800000#32

/-- A vector cast to one column reads, at row `i` (whatever the unit coordinate), the vector at `i`. -/
theorem colCast_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem colBcast_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the ten lanes of a row. -/
theorem laneSum_apply (v : FVec Ideal S5000x10 .f32) (h : S5000x10.Reduces [1] S5000) (hφ : FKind.Formats .f32)
    (hacc : (0x00000000#32 : BitVec 32) = FKind.add.neutral .f32 hφ) (p : Fin 5000) :
    multiReduction (F := Ideal) .add [1] S5000 v 0x00000000#32 h hφ hacc (ix1 p) = ∑ j : Fin 10, v (ix2 p j) :=
  (Ideal.multiReduction_add_single v _ h hφ hacc (ix1 p)).trans (by
    show ∑ k : Fin 10, v (h.lift (ix1 p) k) = _
    refine Finset.sum_congr rfl fun k _ => congrArg v (funext fun a => Fin.ext ?_)
    match a with
    | ⟨0, _⟩ => rfl
    | ⟨1, _⟩ => rfl)

/-- The maximum along the ten lanes of a row, folded from the accumulator's value. -/
theorem laneMax_apply (v : FVec Ideal S5000x10 .f32) (h : S5000x10.Reduces [1] S5000) (hφ : FKind.Formats .f32)
    (hacc : (0xFF800000#32 : BitVec 32) = FKind.maximumf.neutral .f32 hφ) (p : Fin 5000) :
    multiReduction (F := Ideal) .maximumf [1] S5000 v 0xFF800000#32 h hφ hacc (ix1 p)
      = Sage.rowMax ninf (fun j : Fin 10 => v (ix2 p j)) :=
  (Ideal.multiReduction_maximumf_single v _ h hφ hacc (ix1 p)).trans (by
    have e : (v ∘ h.lift (ix1 p)) = fun j : Fin 10 => v (ix2 p j) := funext fun k => congrArg v (funext fun a => Fin.ext (by
      match a with
      | ⟨0, _⟩ => rfl
      | ⟨1, _⟩ => rfl))
    show (Finset.univ : Finset (Fin 10)).fold max (Ideal.ofBits .f32 0xFF800000#32) (v ∘ h.lift (ix1 p)) = _
    rw [e]
    rfl)

/-! ### The contraction of a row block with a weight matrix, read at an entry -/

theorem lhs_k2_0 (i : S5000x10.Idx) (q : dot_S5000x32_S32x10_S5000x10_1_0_0_1_n_n.contr.Idx) :
    (dot_S5000x32_S32x10_S5000x10_1_0_0_1_n_n.lhsIdx i q 0).val = (i 0).val := by
  unfold DotDims.lhsIdx
  rw [dif_neg (show ¬(0 : Fin S5000x32.rank) ∈ dot_S5000x32_S32x10_S5000x10_1_0_0_1_n_n.lhsBatch by decide), dif_pos (show (0 : Fin S5000x32.rank) ∈ dot_S5000x32_S32x10_S5000x10_1_0_0_1_n_n.lhsNonContracting by decide)]
  rfl
theorem lhs_k2_1 (i : S5000x10.Idx) (q : dot_S5000x32_S32x10_S5000x10_1_0_0_1_n_n.contr.Idx) :
    (dot_S5000x32_S32x10_S5000x10_1_0_0_1_n_n.lhsIdx i q 1).val = (q ⟨0, by decide⟩).val :=
  dot_S5000x32_S32x10_S5000x10_1_0_0_1_n_n.lhsIdx_val_of_single rfl i q
theorem rhs_k2_0 (i : S5000x10.Idx) (q : dot_S5000x32_S32x10_S5000x10_1_0_0_1_n_n.contr.Idx) :
    (dot_S5000x32_S32x10_S5000x10_1_0_0_1_n_n.rhsIdx i q 0).val = (q ⟨0, by decide⟩).val :=
  dot_S5000x32_S32x10_S5000x10_1_0_0_1_n_n.rhsIdx_val_of_single rfl i q
theorem rhs_k2_1 (i : S5000x10.Idx) (q : dot_S5000x32_S32x10_S5000x10_1_0_0_1_n_n.contr.Idx) :
    (dot_S5000x32_S32x10_S5000x10_1_0_0_1_n_n.rhsIdx i q 1).val = (i 1).val := by
  unfold DotDims.rhsIdx
  rw [dif_neg (show ¬(1 : Fin S32x10.rank) ∈ dot_S5000x32_S32x10_S5000x10_1_0_0_1_n_n.rhsBatch by decide), dif_pos (show (1 : Fin S32x10.rank) ∈ dot_S5000x32_S32x10_S5000x10_1_0_0_1_n_n.rhsNonContracting by decide)]
  rfl

/-- The product accumulated into the zero block is, at `(p, q)`, the sum over the 32 features of row `p` times column `q`. -/
theorem mm_apply {φ₁ φ₂ : FTy} (a : FVec Ideal S5000x32 φ₁) (w : FVec Ideal S32x10 φ₂) (p : Fin 5000) (q : Fin 10) :
    matmul (F := Ideal) dot_S5000x32_S32x10_S5000x10_1_0_0_1_n_n none a w (constant (F := Ideal) S5000x10 .f32 0x00000000#32) (ix2 p q)
      = ∑ k : Fin 32, a (ix2 p k) * w (ix2 k q) := by
  simp only [matmul]
  rw [Ideal.matmul_constant_zero_apply, ← Equiv.sum_comp (ValueIdx.contrEquiv1 dot_S5000x32_S32x10_S5000x10_1_0_0_1_n_n 32 rfl rfl).symm]
  refine Finset.sum_congr rfl fun k _ => ?_
  have hk := ValueIdx.contrEquiv1_symm_val dot_S5000x32_S32x10_S5000x10_1_0_0_1_n_n 32 rfl rfl k
  have el : dot_S5000x32_S32x10_S5000x10_1_0_0_1_n_n.lhsIdx (ix2 p q) ((ValueIdx.contrEquiv1 dot_S5000x32_S32x10_S5000x10_1_0_0_1_n_n 32 rfl rfl).symm k) = ix2 p k := funext fun a => Fin.ext (by
    match a with
    | ⟨0, _⟩ => exact lhs_k2_0 _ _
    | ⟨1, _⟩ => exact (lhs_k2_1 _ _).trans hk)
  have er : dot_S5000x32_S32x10_S5000x10_1_0_0_1_n_n.rhsIdx (ix2 p q) ((ValueIdx.contrEquiv1 dot_S5000x32_S32x10_S5000x10_1_0_0_1_n_n 32 rfl rfl).symm k) = ix2 k q := funext fun a => Fin.ext (by
    match a with
    | ⟨0, _⟩ => exact (rhs_k2_0 _ _).trans hk
    | ⟨1, _⟩ => exact rhs_k2_1 _ _)
  rw [el, er]

/-! ### The three stages of the block's arithmetic, each read at an entry over a generic operand -/

/-- The affine stage: the two contractions added, then the bias row added to every row. -/
theorem lin_apply (x0 x1 : FVec Ideal S5000x32 .f32) (x2 x3 : FVec Ideal S32x10 .f32) (x4 : FVec Ideal S1x10 .f32)
    (hc32 : S5000x32.ShapeCasts S5000x32) (hb16 : FTy.bits .bf16 < FTy.bits .f32) (hc1 : S1x10.ShapeCasts S1x10)
    (hbr : S1x10.Broadcasts S5000x10) (p : Fin 5000) (q : Fin 10) :
    addf (addf (matmul (F := Ideal) dot_S5000x32_S32x10_S5000x10_1_0_0_1_n_n none (truncf .bf16 (shapeCast S5000x32 x0 hc32) hb16) (truncf .bf16 x2 hb16) (constant (F := Ideal) S5000x10 .f32 0x00000000#32))
               (matmul (F := Ideal) dot_S5000x32_S32x10_S5000x10_1_0_0_1_n_n none (truncf .bf16 (shapeCast S5000x32 x1 hc32) hb16) (truncf .bf16 x3 hb16) (constant (F := Ideal) S5000x10 .f32 0x00000000#32)))
         (broadcastTo S5000x10 (shapeCast S1x10 x4 hc1) hbr) (ix2 p q)
      = Sage.linRow (fun k : Fin 32 => x0 (ix2 p k)) (fun k : Fin 32 => x1 (ix2 p k))
          (fun (k : Fin 32) (j : Fin 10) => x2 (ix2 k j)) (fun (k : Fin 32) (j : Fin 10) => x3 (ix2 k j))
          (fun j : Fin 10 => x4 (ix2 (0 : Fin 1) j)) q := by
  rw [shapeCast_self, shapeCast_self, shapeCast_self, addf_apply, addf_apply, mm_apply, mm_apply, broadcastTo_1b_ab_apply]
  rfl

/-- The normalising stage: each entry divided by the larger of its row's Euclidean norm and the small constant. -/
theorem unit_apply (L : FVec Ideal S5000x10 .f32) (hr : S5000x10.Reduces [1] S5000) (hφ : FKind.Formats .f32)
    (ha : (0x00000000#32 : BitVec 32) = FKind.add.neutral .f32 hφ) (hc : S5000.ShapeCasts S5000x1)
    (hb : S5000x1.Broadcasts S5000x10) (p : Fin 5000) (q : Fin 10) :
    divf L (broadcastTo S5000x10 (maximumf (sqrt (shapeCast S5000x1 (multiReduction (F := Ideal) .add [1] S5000 (mulf L L) 0x00000000#32 hr hφ ha) hc))
        (broadcast S5000x1 (Scalar.ofBits (F := Ideal) .f32 0x2B8CBCCC#32))) hb) (ix2 p q)
      = Sage.unitRow eps (fun j : Fin 10 => L (ix2 p j)) q := by
  rw [divf_apply, colBcast_apply, maximumf_apply, broadcast_apply]
  show Ideal.div _ (max (Ideal.sqrt (shapeCast S5000x1 _ hc (ix2 p (0 : Fin 1)))) _) = _
  rw [colCast_apply, laneSum_apply]
  rfl

/-- The last stage: the row's maximum subtracted, then the logarithm of the sum of the exponentials subtracted. -/
theorem smax_apply (N : FVec Ideal S5000x10 .f32) (hr : S5000x10.Reduces [1] S5000) (hφ : FKind.Formats .f32)
    (ha : (0x00000000#32 : BitVec 32) = FKind.add.neutral .f32 hφ) (hm : (0xFF800000#32 : BitVec 32) = FKind.maximumf.neutral .f32 hφ)
    (hc : S5000.ShapeCasts S5000x1) (hb : S5000x1.Broadcasts S5000x10) (p : Fin 5000) (q : Fin 10) :
    subf (subf N (broadcastTo S5000x10 (shapeCast S5000x1 (multiReduction (F := Ideal) .maximumf [1] S5000 N 0xFF800000#32 hr hφ hm) hc) hb))
      (broadcastTo S5000x10 (log (shapeCast S5000x1 (multiReduction (F := Ideal) .add [1] S5000
        (exp (subf N (broadcastTo S5000x10 (shapeCast S5000x1 (multiReduction (F := Ideal) .maximumf [1] S5000 N 0xFF800000#32 hr hφ hm) hc) hb)))
        0x00000000#32 hr hφ ha) hc)) hb) (ix2 p q)
      = Sage.logSoftmaxRow ninf (fun j : Fin 10 => N (ix2 p j)) q := by
  have hM : ∀ j : Fin 10, broadcastTo S5000x10 (shapeCast S5000x1 (multiReduction (F := Ideal) .maximumf [1] S5000 N 0xFF800000#32 hr hφ hm) hc) hb (ix2 p j)
      = Sage.rowMax ninf (fun j : Fin 10 => N (ix2 p j)) := fun j => by
    rw [colBcast_apply, colCast_apply, laneMax_apply]
  rw [subf_apply, subf_apply, hM q, colBcast_apply]
  show _ - Ideal.log (shapeCast S5000x1 _ hc (ix2 p (0 : Fin 1))) = _
  rw [colCast_apply, laneSum_apply]
  unfold Sage.logSoftmaxRow
  refine congrArg (fun s => _ - Ideal.log s) (Finset.sum_congr rfl fun j _ => ?_)
  show Ideal.exp (N (ix2 p j) - _) = _
  rw [hM j]

theorem pay_apply (x0 x1 : FVec Ideal S5000x32 .f32) (x2 x3 : FVec Ideal S32x10 .f32) (x4 : FVec Ideal S1x10 .f32)
    (p : Fin 5000) (q : Fin 10) :
    k2_pay1 (F := Ideal) x0 x1 x2 x3 x4 (ix2 p q)
      = Sage.logSoftmaxRow ninf (Sage.unitRow eps (Sage.linRow (fun k : Fin 32 => x0 (ix2 p k)) (fun k : Fin 32 => x1 (ix2 p k))
          (fun (k : Fin 32) (j : Fin 10) => x2 (ix2 k j)) (fun (k : Fin 32) (j : Fin 10) => x3 (ix2 k j))
          (fun j : Fin 10 => x4 (ix2 (0 : Fin 1) j)))) q := by
  unfold k2_pay1
  dsimp only
  refine (smax_apply _ _ _ _ _ _ _ p q).trans ?_
  refine congrArg (fun v => Sage.logSoftmaxRow ninf v q) (funext fun j => ?_)
  refine (unit_apply _ _ _ _ _ _ p j).trans ?_
  refine congrArg (fun v => Sage.unitRow eps v j) (funext fun j' => ?_)
  exact lin_apply x0 x1 x2 x3 x4 _ _ _ _ p j'

variable (V : (c : Dev nD) → (b : Ref sig .tc) → Buf (Elt Ideal) ((c : Thread nD τ).loc b))

/-! ### From the blocks to the whole result array -/

/-- Node `r`'s row of the result, from the arrays as the region finds them. -/
abbrev outRow (c : Dev nD) (r : Fin 100000) : Fin 10 → EReal :=
  Sage.logSoftmaxRow ninf (Sage.unitRow eps (Sage.linRow
    (fun k : Fin 32 => (V c main_v64 : FVec Ideal S100000x32 .f32) (ix2 r k))
    (fun k : Fin 32 => (V c main_v45 : FVec Ideal S100000x32 .f32) (ix2 r k))
    (fun (k : Fin 32) (j : Fin 10) => (V c main_arg8 : FVec Ideal S32x10 .f32) (ix2 k j))
    (fun (k : Fin 32) (j : Fin 10) => (V c main_arg9 : FVec Ideal S32x10 .f32) (ix2 k j))
    (fun j : Fin 10 => (V c main_v65 : FVec Ideal S1x10 .f32) (ix2 (0 : Fin 1) j))))

/-- The whole result array as one function of the region's entry arrays: entry `(r, j)` is row `r`'s value at `j`. -/
abbrev wholeOut (c : Dev nD) : S100000x10.Idx → EReal :=
  fun i => outRow V c ⟨(i 0).val, idx2_lt0 i⟩ ⟨(i 1).val, idx2_lt1 i⟩

/-- The whole-array function at an index whose coordinates are `R` and `Q`. -/
theorem wholeOut_at (c : Dev nD) (i : S100000x10.Idx) (R : Fin 100000) (Q : Fin 10) (h0 : (i 0).val = R.val)
    (h1 : (i 1).val = Q.val) : wholeOut V c i = outRow V c R Q := by
  obtain rfl : R = ⟨(i 0).val, idx2_lt0 i⟩ := Fin.ext h0.symm
  obtain rfl : Q = ⟨(i 1).val, idx2_lt1 i⟩ := Fin.ext h1.symm
  rfl

/-- The row's value depends on its five operands entry by entry. -/
theorem rows_congr {a a' h h' : Fin 32 → EReal} {wl wl' wr wr' : Fin 32 → Fin 10 → EReal} {b b' : Fin 10 → EReal}
    (ha : ∀ k, a k = a' k) (hh : ∀ k, h k = h' k) (hl : ∀ k j, wl k j = wl' k j) (hr : ∀ k j, wr k j = wr' k j)
    (hb : ∀ j, b j = b' j) :
    Sage.logSoftmaxRow ninf (Sage.unitRow eps (Sage.linRow a h wl wr b))
      = Sage.logSoftmaxRow ninf (Sage.unitRow eps (Sage.linRow a' h' wl' wr' b')) := by
  obtain rfl : a = a' := funext ha
  obtain rfl : h = h' := funext hh
  obtain rfl : wl = wl' := funext fun k => funext (hl k)
  obtain rfl : wr = wr' := funext fun k => funext (hr k)
  obtain rfl : b = b' := funext hb
  rfl

theorem zero_offsets : (![0, 0] : Fin 2 → Nat) = fun _ => 0 := funext fun a => by fin_cases a <;> rfl

/-- The printed index maps, decided over the twenty grid points: the two data windows and the result window sit at
    block `t` along the rows and block 0 along the columns; the weights and the bias sit at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := by
  have h : t.val < grid2.N := t.isLt
  rwa [N_2] at h

/-! The five input blocks at a point, read at an entry: each is the region's array where the block's rectangle says. -/

theorem blk0_apply (c : Dev nD) (t : Fin cfg2.N) (p : Fin 5000) (k : Fin 32) (R : Fin 100000)
    (hR : R.val = t.val * 5000 + p.val) :
    iblk2 (F := Ideal) V c 0 t (ix2 p k) = (V c main_v64 : FVec Ideal S100000x32 .f32) (ix2 R k) := by
  show V c main_v64 (((cfg2.win 0).blk t).view.emb (ix2 p k)) = V c main_v64 (ix2 R k)
  obtain ⟨e00, e01, -⟩ := block_index t
  refine congrArg (V c main_v64) (funext fun a => Fin.ext ?_)
  match a with
  | ⟨0, _⟩ => show win2_0.index t (0 : Fin 2) * 5000 + 1 * p.val = R.val; omega
  | ⟨1, _⟩ => show win2_0.index t (1 : Fin 2) * 32 + 1 * k.val = k.val; omega

theorem blk1_apply (c : Dev nD) (t : Fin cfg2.N) (p : Fin 5000) (k : Fin 32) (R : Fin 100000)
    (hR : R.val = t.val * 5000 + p.val) :
    iblk2 (F := Ideal) V c 1 t (ix2 p k) = (V c main_v45 : FVec Ideal S100000x32 .f32) (ix2 R k) := by
  show V c main_v45 (((cfg2.win 1).blk t).view.emb (ix2 p k)) = V c main_v45 (ix2 R k)
  obtain ⟨-, -, e10, e11, -⟩ := block_index t
  refine congrArg (V c main_v45) (funext fun a => Fin.ext ?_)
  match a with
  | ⟨0, _⟩ => show win2_1.index t (0 : Fin 2) * 5000 + 1 * p.val = R.val; omega
  | ⟨1, _⟩ => show win2_1.index t (1 : Fin 2) * 32 + 1 * k.val = k.val; omega

theorem blk2_apply (c : Dev nD) (t : Fin cfg2.N) (k : Fin 32) (j : Fin 10) :
    iblk2 (F := Ideal) V c 2 t (ix2 k j) = (V c main_arg8 : FVec Ideal S32x10 .f32) (ix2 k j) := by
  show V c main_arg8 (((cfg2.win 2).blk t).view.emb (ix2 k j)) = V c main_arg8 (ix2 k j)
  obtain ⟨-, -, -, -, e20, e21, -⟩ := block_index t
  refine congrArg (V c main_arg8) (funext fun a => Fin.ext ?_)
  match a with
  | ⟨0, _⟩ => show win2_2.index t (0 : Fin 2) * 32 + 1 * k.val = k.val; omega
  | ⟨1, _⟩ => show win2_2.index t (1 : Fin 2) * 10 + 1 * j.val = j.val; omega

theorem blk3_apply (c : Dev nD) (t : Fin cfg2.N) (k : Fin 32) (j : Fin 10) :
    iblk2 (F := Ideal) V c 3 t (ix2 k j) = (V c main_arg9 : FVec Ideal S32x10 .f32) (ix2 k j) := by
  show V c main_arg9 (((cfg2.win 3).blk t).view.emb (ix2 k j)) = V c main_arg9 (ix2 k j)
  obtain ⟨-, -, -, -, -, -, e30, e31, -⟩ := block_index t
  refine congrArg (V c main_arg9) (funext fun a => Fin.ext ?_)
  match a with
  | ⟨0, _⟩ => show win2_3.index t (0 : Fin 2) * 32 + 1 * k.val = k.val; omega
  | ⟨1, _⟩ => show win2_3.index t (1 : Fin 2) * 10 + 1 * j.val = j.val; omega

theorem blk4_apply (c : Dev nD) (t : Fin cfg2.N) (u : Fin 1) (j : Fin 10) :
    iblk2 (F := Ideal) V c 4 t (ix2 u j) = (V c main_v65 : FVec Ideal S1x10 .f32) (ix2 u j) := by
  show V c main_v65 (((cfg2.win 4).blk t).view.emb (ix2 u j)) = V c main_v65 (ix2 u j)
  obtain ⟨-, -, -, -, -, -, -, -, e40, e41, -⟩ := block_index t
  refine congrArg (V c main_v65) (funext fun a => Fin.ext ?_)
  match a with
  | ⟨0, _⟩ => show win2_4.index t (0 : Fin 2) * 1 + 1 * u.val = u.val; omega
  | ⟨1, _⟩ => show win2_4.index t (1 : Fin 2) * 10 + 1 * j.val = j.val; omega

/-- What point `t` writes back is block `t` of the whole-array function. -/
theorem flushed_eq (c : Dev nD) (t : Fin cfg2.N) :
    (dat2 (F := Ideal) V c).flushed 5 t = ((cfg2.win 5).blk t).view.read (Elt Ideal) (wholeOut V c) := by
  show (cfg2.win 5).cut (grid2.coords t) ((dat2 (F := Ideal) V c).after 5 t) = _
  rw [after2_5]
  unfold out2_5
  rw [View.canon_unit_zero zero_offsets]
  simp only [View.ld_unit_zero (S := S5000x32) zero_offsets, View.ld_unit_zero (S := S32x10) zero_offsets,
    View.ld_unit_zero (S := S1x10) zero_offsets]
  funext y
  obtain ⟨p, q, rfl⟩ : ∃ (p : Fin 5000) (q : Fin 10), y = ix2 p q := ⟨y 0, y 1, eq_ix2 y⟩
  have ht := point_lt t
  obtain ⟨-, -, -, -, -, -, -, -, -, -, e50, e51⟩ := block_index t
  have hR : (⟨t.val * 5000 + p.val, by omega⟩ : Fin 100000).val = t.val * 5000 + p.val := rfl
  show k2_pay1 (F := Ideal) (iblk2 V c 0 t) (iblk2 V c 1 t) (iblk2 V c 2 t) (iblk2 V c 3 t) (iblk2 V c 4 t) (ix2 p q)
    = wholeOut V c (((cfg2.win 5).blk t).view.emb (ix2 p q))
  refine (pay_apply (iblk2 V c 0 t) (iblk2 V c 1 t) (iblk2 V c 2 t) (iblk2 V c 3 t) (iblk2 V c 4 t) p q).trans ?_
  refine Eq.trans ?_ (wholeOut_at V c (((cfg2.win 5).blk t).view.emb (ix2 p q)) ⟨t.val * 5000 + p.val, by omega⟩ q ?_ ?_).symm
  · exact congrFun (rows_congr (fun k => blk0_apply V c t p k _ hR) (fun k => blk1_apply V c t p k _ hR)
      (fun k j => blk2_apply V c t k j) (fun k j => blk3_apply V c t k j) (fun j => blk4_apply V c t 0 j)) q
  · show win2_5.index t (0 : Fin 2) * 5000 + 1 * p.val = t.val * 5000 + p.val; omega
  · show win2_5.index t (1 : Fin 2) * 10 + 1 * q.val = q.val; omega

/-- An index of the result array is in point `t`'s block iff each coordinate is in the block's range on its axis. -/
theorem mem_block (t : Fin cfg2.N) (i : S100000x10.Idx) :
    i ∈ ((cfg2.win 5).blk t).view.set ↔ ∀ a : Fin 2, win2_5.index t a * S5000x10.size a ≤ (i a).val ∧ (i a).val < win2_5.index t a * S5000x10.size a + S5000x10.size a := by
  show i ∈ ((View.whole main_v66).slice (win2_5.rect t)).set ↔ _
  rw [View.set_slice_whole, Rect.mem_set_unit]
  exact Iff.rfl

/-- Row `r` lies in the block of the point `r / 5000`, and every point writes its block back. -/
theorem covered (i : S100000x10.Idx) :
    ∃ t : Fin cfg2.N, (cfg2.win 5).flush t = true ∧ i ∈ ((cfg2.win 5).blk t).view.set := by
  have hi0 : (i 0).val < 100000 := idx2_lt0 i
  have hi1 : (i 1).val < 10 := idx2_lt1 i
  have hN : (i 0).val / 5000 < grid2.N := by rw [N_2]; omega
  refine ⟨⟨(i 0).val / 5000, hN⟩, flush2_5 _, ?_⟩
  rw [mem_block]
  obtain ⟨-, -, -, -, -, -, -, -, -, -, e50, e51⟩ := block_index ⟨(i 0).val / 5000, hN⟩
  have e50' : win2_5.index ⟨(i 0).val / 5000, hN⟩ (0 : Fin 2) = (i 0).val / 5000 := e50
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    omega
  | ⟨1, _⟩ =>
    show win2_5.index ⟨(i 0).val / 5000, hN⟩ (1 : Fin 2) * 10 ≤ (i 1).val ∧ (i 1).val < win2_5.index ⟨(i 0).val / 5000, hN⟩ (1 : Fin 2) * 10 + 10
    omega

/-- The result array after the run is the whole-array function. -/
theorem result_array (c : Dev nD) : (dat2 (F := Ideal) V c).arrAt 5 cfg2.N = wholeOut V c :=
  (dat2 (F := Ideal) V c).arrAt_eq_of_cover 5 (wholeOut V c) (fun t _ => flushed_eq V c t) (covered)

theorem value (c : Dev nD) (r : Fin 100000) (j : Fin 10) :
    (dat2 (F := Ideal) V c).arrAt 5 cfg2.N (ix2 r j)
      = Sage.logSoftmaxRow ninf (Sage.unitRow eps (Sage.linRow
          (fun k : Fin 32 => (V c main_v64 : FVec Ideal S100000x32 .f32) (ix2 r k))
          (fun k : Fin 32 => (V c main_v45 : FVec Ideal S100000x32 .f32) (ix2 r k))
          (fun (k : Fin 32) (j : Fin 10) => (V c main_arg8 : FVec Ideal S32x10 .f32) (ix2 k j))
          (fun (k : Fin 32) (j : Fin 10) => (V c main_arg9 : FVec Ideal S32x10 .f32) (ix2 k j))
          (fun j : Fin 10 => (V c main_v65 : FVec Ideal S1x10 .f32) (ix2 (0 : Fin 1) j)))) j := by
  rw [result_array V c]

end Cert.KernelIdeal.Layer2

end
-- ==== Proof.RLayer0.lean ====
import proofs.«162872_j54039278518913_1_alg».proof.Proof.RefReadP
import proofs.«162872_j54039278518913_1_alg».proof.Proof.LibSageRow
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open Idealize.ShloMosaic Idealize.ShloMosaic.TcCoe Idealize.SL.Sem Idealize.ShloMosaic.ValueIdx

namespace Cert.ReferenceIdeal.Layer0

open Cert.ReferenceIdeal Cert.ReferenceIdeal.ReadP

abbrev eps : EReal := Ideal.ofBits .f32 0x2B8CBCCC#32
abbrev zero : EReal := Ideal.ofBits .f32 0x00000000#32
abbrev ninf : EReal := Ideal.ofBits .f32 0xFF800000#32

/-! The composed index functions of the reference's operations, at a row `r` and a column `j`. -/

/-- Left operand of the neighbour product: row `r`, contraction position `k`. -/
theorem lidx23 (r : Fin 100000) (j k : Fin 64) : lidx_main_v23 (ix2 r j) k = ix2 r k :=
  funext fun a => Fin.ext (by match a with | ⟨0, _⟩ => rfl | ⟨1, _⟩ => rfl)
/-- Right operand of the neighbour product: contraction position `k`, column `j`. -/
theorem ridx23 (r : Fin 100000) (j k : Fin 64) : ridx_main_v23 (ix2 r j) k = ix2 k j :=
  funext fun a => Fin.ext (by match a with | ⟨0, _⟩ => rfl | ⟨1, _⟩ => rfl)
/-- Left operand of the own-features product. -/
theorem lidx27 (r : Fin 100000) (j k : Fin 64) : lidx_main_v27 (ix2 r j) k = ix2 r k :=
  funext fun a => Fin.ext (by match a with | ⟨0, _⟩ => rfl | ⟨1, _⟩ => rfl)
/-- Right operand of the own-features product. -/
theorem ridx27 (r : Fin 100000) (j k : Fin 64) : ridx_main_v27 (ix2 r j) k = ix2 k j :=
  funext fun a => Fin.ext (by match a with | ⟨0, _⟩ => rfl | ⟨1, _⟩ => rfl)
/-- The bias is broadcast along the rows: entry `(r, j)` reads the bias at `j`. -/
theorem bidx (r : Fin 100000) (j : Fin 64) : idx_main_v24 (idx_main_v25 (ix2 r j)) = ix1 j :=
  funext fun a => Fin.ext (by match a with | ⟨0, _⟩ => rfl)
/-- The row's sum of squares is broadcast along the columns: entry `(r, j)` of the norm reads, at position `k` of its
    sum, the square at `(r, k)`. -/
theorem sidx (r : Fin 100000) (j k : Fin 64) :
    idx_main_call0_v1 (idx_main_call0_v2 (idx_main_v32 (ix2 r j))) k = ix2 r k :=
  funext fun a => Fin.ext (by match a with | ⟨0, _⟩ => rfl | ⟨1, _⟩ => rfl)

/-- The affine value at `(r, j)`: the reference adds (neighbour part + bias) + own part, which is the row's affine
    value with the three terms regrouped. -/
theorem lin (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal))
    (r : Fin 100000) (j : Fin 64) :
    val_main_v28 (F := Ideal) x0 x1 x2 x3 x4 (ix2 r j) = (Sage.linRow
          (fun k : Fin 64 => val_main_v22 (F := Ideal) x0 x1 (ix2 r k))
          (fun k : Fin 64 => x0 (ix2 r k))
          (fun (k : Fin 64) (j : Fin 64) => x2 (ix2 k j)) (fun (k : Fin 64) (j : Fin 64) => x3 (ix2 k j))
          (fun j : Fin 64 => x4 (ix1 j))) j := by
  rw [val_main_v28_apply, val_main_v26_apply, val_main_v23_apply, val_main_v25_apply, val_main_v24_apply,
    val_main_v27_apply]
  simp only [lidx23, ridx23, lidx27, ridx27, bidx, Ideal.addf_def]
  exact Sage.linRow_eq (fun k : Fin 64 => val_main_v22 (F := Ideal) x0 x1 (ix2 r k)) (fun k : Fin 64 => x0 (ix2 r k))
    (fun (k : Fin 64) (j : Fin 64) => x2 (ix2 k j)) (fun (k : Fin 64) (j : Fin 64) => x3 (ix2 k j))
    (fun j : Fin 64 => x4 (ix1 j)) j

/-- The sum of squares of row `r`, read where the divisor at `(r, j)` reads it. The sum starts from the zero word, which is
    the number zero, and each square is the square of the row's affine value. -/
theorem sumsq (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal))
    (r : Fin 100000) (j : Fin 64) :
    val_main_call0_v1 (F := Ideal) x0 x1 x2 x3 x4 (idx_main_call0_v2 (idx_main_v32 (ix2 r j)))
      = ∑ j' : Fin 64, (Sage.linRow
          (fun k : Fin 64 => val_main_v22 (F := Ideal) x0 x1 (ix2 r k))
          (fun k : Fin 64 => x0 (ix2 r k))
          (fun (k : Fin 64) (j : Fin 64) => x2 (ix2 k j)) (fun (k : Fin 64) (j : Fin 64) => x3 (ix2 k j))
          (fun j : Fin 64 => x4 (ix1 j))) j' * (Sage.linRow
          (fun k : Fin 64 => val_main_v22 (F := Ideal) x0 x1 (ix2 r k))
          (fun k : Fin 64 => x0 (ix2 r k))
          (fun (k : Fin 64) (j : Fin 64) => x2 (ix2 k j)) (fun (k : Fin 64) (j : Fin 64) => x3 (ix2 k j))
          (fun j : Fin 64 => x4 (ix1 j))) j' := by
  rw [val_main_call0_v1_apply, val_main_call0_cst_apply, Ideal.ofBits_def, Ideal.ofBits_zero_f32, zero_add]
  refine Finset.sum_congr rfl fun k _ => ?_
  rw [sidx, val_main_call0_v0_apply, lin, Ideal.mulf_def]

/-- The divisor at `(r, j)`: the larger of `eps` and the row's Euclidean norm, the square root of the row's sum of
    squares. -/
theorem nrm (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal))
    (r : Fin 100000) (j : Fin 64) :
    val_main_v32 (F := Ideal) x0 x1 x2 x3 x4 (ix2 r j)
      = max (Ideal.sqrt (∑ j' : Fin 64, (Sage.linRow
          (fun k : Fin 64 => val_main_v22 (F := Ideal) x0 x1 (ix2 r k))
          (fun k : Fin 64 => x0 (ix2 r k))
          (fun (k : Fin 64) (j : Fin 64) => x2 (ix2 k j)) (fun (k : Fin 64) (j : Fin 64) => x3 (ix2 k j))
          (fun j : Fin 64 => x4 (ix1 j))) j' * (Sage.linRow
          (fun k : Fin 64 => val_main_v22 (F := Ideal) x0 x1 (ix2 r k))
          (fun k : Fin 64 => x0 (ix2 r k))
          (fun (k : Fin 64) (j : Fin 64) => x2 (ix2 k j)) (fun (k : Fin 64) (j : Fin 64) => x3 (ix2 k j))
          (fun j : Fin 64 => x4 (ix1 j))) j')) eps := by
  rw [val_main_v32_apply, val_main_v31_apply, val_main_v29_apply, val_main_v30_apply, val_main_cst_4_apply,
    val_main_call0_v2_apply, sumsq, Ideal.maximumf_def, Ideal.hostUnary_sqrt_def, Ideal.ofBits_def]

theorem layer (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal))
    (r : Fin 100000) (j : Fin 64) :
    val_main_v34 (F := Ideal) x0 x1 x2 x3 x4 (ix2 r j)
      = Sage.reluRow zero (Sage.unitRow eps (Sage.linRow
          (fun k : Fin 64 => val_main_v22 (F := Ideal) x0 x1 (ix2 r k))
          (fun k : Fin 64 => x0 (ix2 r k))
          (fun (k : Fin 64) (j : Fin 64) => x2 (ix2 k j)) (fun (k : Fin 64) (j : Fin 64) => x3 (ix2 k j))
          (fun j : Fin 64 => x4 (ix1 j)))) j := by
  rw [val_main_v34_apply, val_main_v33_apply, val_main_call1_v0_apply, val_main_call1_cst_apply, lin, nrm,
    Ideal.maximumf_def, Ideal.hostDivf_def, Ideal.ofBits_def]
  unfold Sage.reluRow Sage.unitRow
  rfl

end Cert.ReferenceIdeal.Layer0

end
-- ==== Proof.RLayer1.lean ====
import proofs.«162872_j54039278518913_1_alg».proof.Proof.RefReadP
import proofs.«162872_j54039278518913_1_alg».proof.Proof.LibSageRow
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open Idealize.ShloMosaic Idealize.ShloMosaic.TcCoe Idealize.SL.Sem Idealize.ShloMosaic.ValueIdx

namespace Cert.ReferenceIdeal.Layer1

open Cert.ReferenceIdeal Cert.ReferenceIdeal.ReadP

abbrev eps : EReal := Ideal.ofBits .f32 0x2B8CBCCC#32
abbrev zero : EReal := Ideal.ofBits .f32 0x00000000#32
abbrev ninf : EReal := Ideal.ofBits .f32 0xFF800000#32
/-! ### Where each stage reads its operands

At the output position `(r, j)` the two contractions read row `r` of their left operand and column `j` of their right
operand, the bias is read at `j`, and the row's sum of squares runs over row `r`. -/

theorem lidx54_eq (r : Fin 100000) (j : Fin 32) (k : Fin 64) : lidx_main_v54 (ix2 r j) k = ix2 r k :=
  funext fun a => Fin.ext (by match a with | ⟨0, _⟩ => rfl | ⟨1, _⟩ => rfl)

theorem ridx54_eq (r : Fin 100000) (j : Fin 32) (k : Fin 64) : ridx_main_v54 (ix2 r j) k = ix2 k j :=
  funext fun a => Fin.ext (by match a with | ⟨0, _⟩ => rfl | ⟨1, _⟩ => rfl)

theorem lidx58_eq (r : Fin 100000) (j : Fin 32) (k : Fin 64) : lidx_main_v58 (ix2 r j) k = ix2 r k :=
  funext fun a => Fin.ext (by match a with | ⟨0, _⟩ => rfl | ⟨1, _⟩ => rfl)

theorem ridx58_eq (r : Fin 100000) (j : Fin 32) (k : Fin 64) : ridx_main_v58 (ix2 r j) k = ix2 k j :=
  funext fun a => Fin.ext (by match a with | ⟨0, _⟩ => rfl | ⟨1, _⟩ => rfl)

theorem idxBias_eq (r : Fin 100000) (j : Fin 32) : idx_main_v55 (idx_main_v56 (ix2 r j)) = ix1 j :=
  funext fun a => Fin.ext (by match a with | ⟨0, _⟩ => rfl)

theorem idxNorm_eq (r : Fin 100000) (j k : Fin 32) :
    idx_main_call2_v1 (idx_main_call2_v2 (idx_main_v63 (ix2 r j))) k = ix2 r k :=
  funext fun a => Fin.ext (by match a with | ⟨0, _⟩ => rfl | ⟨1, _⟩ => rfl)

/-- The affine stage: the reference adds (neighbour part + bias) + own part, which is the row's affine value. -/
theorem lin_eq (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal))
    (r : Fin 100000) (j' : Fin 32) :
    val_main_v59 (F := Ideal) x0 x1 x2 x3 x4 x5 x6 x7 (ix2 r j')
      = (Sage.linRow
          (fun k : Fin 64 => val_main_v53 (F := Ideal) x0 x1 x2 x3 x4 (ix2 r k))
          (fun k : Fin 64 => val_main_v34 (F := Ideal) x0 x1 x2 x3 x4 (ix2 r k))
          (fun (k : Fin 64) (j : Fin 32) => x5 (ix2 k j)) (fun (k : Fin 64) (j : Fin 32) => x6 (ix2 k j))
          (fun j : Fin 32 => x7 (ix1 j))) j' := by
  rw [val_main_v59_apply, val_main_v57_apply, val_main_v54_apply, val_main_v56_apply, val_main_v55_apply,
    val_main_v58_apply]
  simp only [lidx54_eq, ridx54_eq, lidx58_eq, ridx58_eq, idxBias_eq, Ideal.addf_def]
  exact Sage.linRow_eq
    (fun k : Fin 64 => val_main_v53 (F := Ideal) x0 x1 x2 x3 x4 (ix2 r k))
    (fun k : Fin 64 => val_main_v34 (F := Ideal) x0 x1 x2 x3 x4 (ix2 r k))
    (fun (k : Fin 64) (j : Fin 32) => x5 (ix2 k j)) (fun (k : Fin 64) (j : Fin 32) => x6 (ix2 k j))
    (fun j : Fin 32 => x7 (ix1 j)) j'

/-- The divisor: the square root of the row's sum of squares (summed from zero), kept above `eps`. It is stated for
    any row `L` the affine stage is known to equal, so that the affine value stays closed. -/
theorem norm_eq (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal))
    (r : Fin 100000) (j : Fin 32) (L : Fin 32 → EReal)
    (hL : ∀ j' : Fin 32, val_main_v59 (F := Ideal) x0 x1 x2 x3 x4 x5 x6 x7 (ix2 r j') = L j') :
    val_main_v63 (F := Ideal) x0 x1 x2 x3 x4 x5 x6 x7 (ix2 r j)
      = max (Ideal.sqrt (∑ j' : Fin 32, L j' * L j')) eps := by
  rw [val_main_v63_apply, val_main_v62_apply, val_main_v61_apply, val_main_cst_11_apply, val_main_v60_apply,
    val_main_call2_v2_apply, val_main_call2_v1_apply, val_main_call2_cst_apply]
  have hsq : ∀ k : Fin 32, val_main_call2_v0 (F := Ideal) x0 x1 x2 x3 x4 x5 x6 x7
      (idx_main_call2_v1 (idx_main_call2_v2 (idx_main_v63 (ix2 r j))) k) = L k * L k := fun k => by
    rw [idxNorm_eq, val_main_call2_v0_apply, hL k]
    rfl
  rw [Finset.sum_congr rfl fun k _ => hsq k, Ideal.ofBits_def, Ideal.ofBits_def, Ideal.ofBits_zero_f32, zero_add]
  rfl

/-- The activated value, for any row `L` the affine stage is known to equal: the row divided by its kept-away norm,
    then the maximum with zero. -/
theorem act_eq (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal))
    (r : Fin 100000) (j : Fin 32) (L : Fin 32 → EReal)
    (hL : ∀ j' : Fin 32, val_main_v59 (F := Ideal) x0 x1 x2 x3 x4 x5 x6 x7 (ix2 r j') = L j') :
    val_main_v65 (F := Ideal) x0 x1 x2 x3 x4 x5 x6 x7 (ix2 r j)
      = Sage.reluRow zero (Sage.unitRow eps L) j := by
  rw [val_main_v65_apply, val_main_v64_apply, norm_eq x0 x1 x2 x3 x4 x5 x6 x7 r j L hL, hL j,
    val_main_call3_v0_apply, val_main_call3_cst_apply]
  rfl

theorem layer (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal))
    (r : Fin 100000) (j : Fin 32) :
    val_main_v65 (F := Ideal) x0 x1 x2 x3 x4 x5 x6 x7 (ix2 r j)
      = Sage.reluRow zero (Sage.unitRow eps (Sage.linRow
          (fun k : Fin 64 => val_main_v53 (F := Ideal) x0 x1 x2 x3 x4 (ix2 r k))
          (fun k : Fin 64 => val_main_v34 (F := Ideal) x0 x1 x2 x3 x4 (ix2 r k))
          (fun (k : Fin 64) (j : Fin 32) => x5 (ix2 k j)) (fun (k : Fin 64) (j : Fin 32) => x6 (ix2 k j))
          (fun j : Fin 32 => x7 (ix1 j)))) j := by
  exact act_eq x0 x1 x2 x3 x4 x5 x6 x7 r j _ (lin_eq x0 x1 x2 x3 x4 x5 x6 x7 r)

end Cert.ReferenceIdeal.Layer1

end
-- ==== Proof.RLayer2.lean ====
import proofs.«162872_j54039278518913_1_alg».proof.Proof.RefReadP
import proofs.«162872_j54039278518913_1_alg».proof.Proof.LibSageRow
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open Idealize.ShloMosaic Idealize.ShloMosaic.TcCoe Idealize.SL.Sem Idealize.ShloMosaic.ValueIdx

namespace Cert.ReferenceIdeal.Layer2

open Cert.ReferenceIdeal Cert.ReferenceIdeal.ReadP

abbrev eps : EReal := Ideal.ofBits .f32 0x2B8CBCCC#32
abbrev zero : EReal := Ideal.ofBits .f32 0x00000000#32
abbrev ninf : EReal := Ideal.ofBits .f32 0xFF800000#32

/-- The affine value of row `r` as a row vector: the neighbour mean through the first weight, the previous layer's
    output through the second, plus the bias. -/
abbrev lin (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal)) (x8 x9 : (⟨S32x10, .f32⟩ : BufTy).Contents (Elt Ideal)) (x10 : (⟨S10, .f32⟩ : BufTy).Contents (Elt Ideal)) (r : Fin 100000) : Fin 10 → EReal :=
  Sage.linRow
    (fun k : Fin 32 => val_main_v84 (F := Ideal) x0 x1 x2 x3 x4 x5 x6 x7 (ix2 r k))
    (fun k : Fin 32 => val_main_v65 (F := Ideal) x0 x1 x2 x3 x4 x5 x6 x7 (ix2 r k))
    (fun (k : Fin 32) (j : Fin 10) => x8 (ix2 k j)) (fun (k : Fin 32) (j : Fin 10) => x9 (ix2 k j))
    (fun j : Fin 10 => x10 (ix1 j))

/-- The sum of the two products and the broadcast bias, read at `(r, j')`: both contractions run over the 32 features of
    row `r`, the bias is read at `j'`, and the three terms regroup into the row's affine value. -/
theorem v90_at (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal)) (x8 x9 : (⟨S32x10, .f32⟩ : BufTy).Contents (Elt Ideal)) (x10 : (⟨S10, .f32⟩ : BufTy).Contents (Elt Ideal)) (r : Fin 100000) (j' : Fin 10) :
    val_main_v90 (F := Ideal) x0 x1 x2 x3 x4 x5 x6 x7 x8 x9 x10 (ix2 r j') = lin x0 x1 x2 x3 x4 x5 x6 x7 x8 x9 x10 r j' := by
  have e1 : ∀ k : Fin 32, lidx_main_v85 (ix2 r j') k = ix2 r k := fun k =>
    funext fun a => Fin.ext (by match a with | ⟨0, _⟩ => rfl | ⟨1, _⟩ => rfl)
  have e2 : ∀ k : Fin 32, ridx_main_v85 (ix2 r j') k = ix2 k j' := fun k =>
    funext fun a => Fin.ext (by match a with | ⟨0, _⟩ => rfl | ⟨1, _⟩ => rfl)
  have e3 : ∀ k : Fin 32, lidx_main_v89 (ix2 r j') k = ix2 r k := fun k =>
    funext fun a => Fin.ext (by match a with | ⟨0, _⟩ => rfl | ⟨1, _⟩ => rfl)
  have e4 : ∀ k : Fin 32, ridx_main_v89 (ix2 r j') k = ix2 k j' := fun k =>
    funext fun a => Fin.ext (by match a with | ⟨0, _⟩ => rfl | ⟨1, _⟩ => rfl)
  have e5 : idx_main_v86 (idx_main_v87 (ix2 r j')) = ix1 j' :=
    funext fun a => Fin.ext (by match a with | ⟨0, _⟩ => rfl)
  rw [val_main_v90_apply, val_main_v88_apply, val_main_v85_apply, val_main_v87_apply, val_main_v86_apply,
    val_main_v89_apply]
  simp only [e1, e2, e3, e4, e5, Ideal.addf_def]
  exact Sage.linRow_eq (fun k : Fin 32 => val_main_v84 (F := Ideal) x0 x1 x2 x3 x4 x5 x6 x7 (ix2 r k))
    (fun k : Fin 32 => val_main_v65 (F := Ideal) x0 x1 x2 x3 x4 x5 x6 x7 (ix2 r k))
    (fun (k : Fin 32) (j : Fin 10) => x8 (ix2 k j)) (fun (k : Fin 32) (j : Fin 10) => x9 (ix2 k j))
    (fun j : Fin 10 => x10 (ix1 j)) j'

/-- The quotient by the broadcast norm, read at `(r, j')`: the sum of squares runs over row `r` of the affine value
    (its zero starting value drops out), so the entry is the affine value divided by the larger of the row's norm and
    `eps`. -/
theorem v95_at (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal)) (x8 x9 : (⟨S32x10, .f32⟩ : BufTy).Contents (Elt Ideal)) (x10 : (⟨S10, .f32⟩ : BufTy).Contents (Elt Ideal)) (r : Fin 100000) (j' : Fin 10) :
    val_main_v95 (F := Ideal) x0 x1 x2 x3 x4 x5 x6 x7 x8 x9 x10 (ix2 r j')
      = Sage.unitRow eps (lin x0 x1 x2 x3 x4 x5 x6 x7 x8 x9 x10 r) j' := by
  have e1 : ∀ k : Fin 10, idx_main_call4_v1 (idx_main_call4_v2 (idx_main_v94 (ix2 r j'))) k = ix2 r k := fun k =>
    funext fun a => Fin.ext (by match a with | ⟨0, _⟩ => rfl | ⟨1, _⟩ => rfl)
  have hsum : (∑ k : Fin 10, val_main_call4_v0 (F := Ideal) x0 x1 x2 x3 x4 x5 x6 x7 x8 x9 x10
        (idx_main_call4_v1 (idx_main_call4_v2 (idx_main_v94 (ix2 r j'))) k))
      = ∑ k : Fin 10, lin x0 x1 x2 x3 x4 x5 x6 x7 x8 x9 x10 r k * lin x0 x1 x2 x3 x4 x5 x6 x7 x8 x9 x10 r k :=
    Finset.sum_congr rfl fun k _ => by
      rw [e1, val_main_call4_v0_apply, v90_at, Ideal.mulf_def]
  rw [val_main_v95_apply, val_main_v94_apply, val_main_v93_apply, val_main_v91_apply, val_main_call4_v2_apply,
    val_main_call4_v1_apply, val_main_v92_apply, val_main_cst_18_apply, val_main_call4_cst_apply, hsum, v90_at,
    Ideal.hostDivf_def, Ideal.maximumf_def, Ideal.hostUnary_sqrt_def, Ideal.ofBits_def, Ideal.ofBits_def,
    Ideal.ofBits_zero_f32, zero_add]
  rfl

/-- Inserting the coordinate `j'` on the reduced axis of the rank-1 index `(r)` gives the rank-2 index `(r, j')`. -/
theorem lift_at (h : S100000x10.Reduces [(1 : Fin S100000x10.rank)] S100000) (r : Fin 100000) (j' : Fin 10) :
    h.lift (ix1 r) j' = ix2 r j' :=
  funext fun a => Fin.ext (by match a with | ⟨0, _⟩ => rfl | ⟨1, _⟩ => rfl)

/-- The row maximum at `r`: a reduction over one axis is the fold of `max`, from the starting value, over that axis's
    coordinates, and the entries folded are row `r` of the normalised value. -/
theorem rowmax_at (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal)) (x8 x9 : (⟨S32x10, .f32⟩ : BufTy).Contents (Elt Ideal)) (x10 : (⟨S10, .f32⟩ : BufTy).Contents (Elt Ideal)) (r : Fin 100000) :
    val_main_call5_v0 (F := Ideal) x0 x1 x2 x3 x4 x5 x6 x7 x8 x9 x10 (ix1 r)
      = Sage.rowMax ninf (Sage.unitRow eps (lin x0 x1 x2 x3 x4 x5 x6 x7 x8 x9 x10 r)) := by
  have h : S100000x10.Reduces [(1 : Fin S100000x10.rank)] S100000 := by decide
  unfold val_main_call5_v0
  refine (Host.reduce_eq_fold_single FloatOps.maximumf _ _ _ h _ (ix1 r)).trans ?_
  have hf : (val_main_v95 (F := Ideal) x0 x1 x2 x3 x4 x5 x6 x7 x8 x9 x10 ∘ h.lift (ix1 r))
      = Sage.unitRow eps (lin x0 x1 x2 x3 x4 x5 x6 x7 x8 x9 x10 r) := funext fun (j' : Fin 10) =>
    (congrArg (val_main_v95 (F := Ideal) x0 x1 x2 x3 x4 x5 x6 x7 x8 x9 x10) (lift_at h r j')).trans (v95_at x0 x1 x2 x3 x4 x5 x6 x7 x8 x9 x10 r j')
  rw [hf]
  rfl

/-- The normalised value minus the broadcast row maximum, read at `(r, j')`. The maximum taken once more with the
    fold's own starting value changes nothing, the fold being at least its start. -/
theorem v5_at (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal)) (x8 x9 : (⟨S32x10, .f32⟩ : BufTy).Contents (Elt Ideal)) (x10 : (⟨S10, .f32⟩ : BufTy).Contents (Elt Ideal)) (r : Fin 100000) (j' : Fin 10) :
    val_main_call5_v5 (F := Ideal) x0 x1 x2 x3 x4 x5 x6 x7 x8 x9 x10 (ix2 r j')
      = Sage.unitRow eps (lin x0 x1 x2 x3 x4 x5 x6 x7 x8 x9 x10 r) j' - Sage.rowMax ninf (Sage.unitRow eps (lin x0 x1 x2 x3 x4 x5 x6 x7 x8 x9 x10 r)) := by
  have e1 : idx_main_call5_v3 (idx_main_call5_v4 (ix2 r j')) = ix1 r :=
    funext fun a => Fin.ext (by match a with | ⟨0, _⟩ => rfl)
  rw [val_main_call5_v5_apply, val_main_call5_v4_apply, val_main_call5_v3_apply, val_main_call5_v2_apply,
    val_main_call5_v1_apply, val_main_call5_cst_0_apply, e1, rowmax_at, v95_at, Ideal.subf_def, Ideal.maximumf_def,
    Ideal.ofBits_def, Sage.max_rowMax]

/- The layer's output at `(r, j)`: the shifted value at `(r, j)` minus the logarithm of the row's sum of exponentials of
   the shifted values (the sum's zero starting value drops out), which is the log-softmax of the normalised affine row. -/
theorem layer (x0 : (⟨S100000x64, .f32⟩ : BufTy).Contents (Elt Ideal)) (x1 : (⟨S2x1200000, .i32⟩ : BufTy).Contents (Elt Ideal)) (x2 x3 : (⟨S64x64, .f32⟩ : BufTy).Contents (Elt Ideal)) (x4 : (⟨S64, .f32⟩ : BufTy).Contents (Elt Ideal)) (x5 x6 : (⟨S64x32, .f32⟩ : BufTy).Contents (Elt Ideal)) (x7 : (⟨S32, .f32⟩ : BufTy).Contents (Elt Ideal)) (x8 x9 : (⟨S32x10, .f32⟩ : BufTy).Contents (Elt Ideal)) (x10 : (⟨S10, .f32⟩ : BufTy).Contents (Elt Ideal))
    (r : Fin 100000) (j : Fin 10) :
    val_main_v96 (F := Ideal) x0 x1 x2 x3 x4 x5 x6 x7 x8 x9 x10 (ix2 r j)
      = Sage.logSoftmaxRow ninf (Sage.unitRow eps (Sage.linRow
          (fun k : Fin 32 => val_main_v84 (F := Ideal) x0 x1 x2 x3 x4 x5 x6 x7 (ix2 r k))
          (fun k : Fin 32 => val_main_v65 (F := Ideal) x0 x1 x2 x3 x4 x5 x6 x7 (ix2 r k))
          (fun (k : Fin 32) (j : Fin 10) => x8 (ix2 k j)) (fun (k : Fin 32) (j : Fin 10) => x9 (ix2 k j))
          (fun j : Fin 10 => x10 (ix1 j)))) j := by
  have e1 : ∀ k : Fin 10, idx_main_call5_v7 (idx_main_call5_v8 (idx_main_call5_v10 (ix2 r j))) k = ix2 r k := fun k =>
    funext fun a => Fin.ext (by match a with | ⟨0, _⟩ => rfl | ⟨1, _⟩ => rfl)
  have hsum : (∑ k : Fin 10, val_main_call5_v6 (F := Ideal) x0 x1 x2 x3 x4 x5 x6 x7 x8 x9 x10
        (idx_main_call5_v7 (idx_main_call5_v8 (idx_main_call5_v10 (ix2 r j))) k))
      = ∑ k : Fin 10, Ideal.exp (Sage.unitRow eps (lin x0 x1 x2 x3 x4 x5 x6 x7 x8 x9 x10 r) k
          - Sage.rowMax ninf (Sage.unitRow eps (lin x0 x1 x2 x3 x4 x5 x6 x7 x8 x9 x10 r))) :=
    Finset.sum_congr rfl fun k _ => by
      rw [e1, val_main_call5_v6_apply, v5_at, Ideal.hostUnary_exp_def]
  rw [val_main_v96_apply, val_main_call5_v10_apply, val_main_call5_v9_apply, val_main_call5_v8_apply,
    val_main_call5_v7_apply, val_main_call5_cst_1_apply, hsum, v5_at, Ideal.subf_def, Ideal.hostUnary_log_def,
    Ideal.ofBits_def, Ideal.ofBits_zero_f32, zero_add]
  rfl

end Cert.ReferenceIdeal.Layer2

end
-- ==== Proof.KValue.lean ====
/-
  The kernel program's result, read back. Each of its three regions leaves in its output array, row by row, the
  normalised affine update of that row of the aggregated features and of the previous features (then the relu, or
  for the last layer the max-shifted log-softmax); the reference's stage for that layer is the same row function of
  the same rows. The rows agree by induction over the layers: the aggregation before a region is the reference's
  composition of host operations applied to the previous layer's output, the weights are the launch arguments, and
  the bias laid out as one row is the bias. So the result buffer ends at the reference's last stage of the launch
  arguments.
-/
import proofs.«162872_j54039278518913_1_alg».proof.Proof.Gen.KernelIdeal.Frame
import proofs.«162872_j54039278518913_1_alg».proof.Proof.RefReadP
import proofs.«162872_j54039278518913_1_alg».proof.Proof.LibSageRow
import proofs.«162872_j54039278518913_1_alg».proof.Proof.KThread
import proofs.«162872_j54039278518913_1_alg».proof.Proof.KLayer0
import proofs.«162872_j54039278518913_1_alg».proof.Proof.KLayer1
import proofs.«162872_j54039278518913_1_alg».proof.Proof.KLayer2
import proofs.«162872_j54039278518913_1_alg».proof.Proof.RLayer0
import proofs.«162872_j54039278518913_1_alg».proof.Proof.RLayer1
import proofs.«162872_j54039278518913_1_alg».proof.Proof.RLayer2
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen

abbrev eps : EReal := Ideal.ofBits .f32 0x2B8CBCCC#32
abbrev zero : EReal := Ideal.ofBits .f32 0x00000000#32
abbrev ninf : EReal := Ideal.ofBits .f32 0xFF800000#32

variable (m : (ℓ : Loc nD τ sig) → Buf (Elt Ideal) ℓ) (ρ : Dev nD → PrngReg)

/-- Layer 0: the region's output array is the reference's stage, index by index: both are the same row function of
    rows that agree (the aggregated features, the previous features, the weights and the bias). -/
theorem layer0 (c : Dev nD) :
    W2 m ρ c (Proc.devRef .tc main_v24) = Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine funext fun (i : S100000x64.Idx) => ?_
  rw [eq_ix2 i]
  generalize (i 0 : Fin 100000) = r
  generalize (i 1 : Fin 64) = j
  refine (Cert.KernelIdeal.Layer0.value (V1 m ρ) c r j).trans ?_
  refine Eq.trans ?_ (Cert.ReferenceIdeal.Layer0.layer (m ((c : Thread nD τ).loc main_arg0)) (m ((c : Thread nD τ).loc main_arg1)) (m ((c : Thread nD τ).loc main_arg2)) (m ((c : Thread nD τ).loc main_arg3)) (m ((c : Thread nD τ).loc main_arg4)) r j).symm
  have e0 : (W1 m ρ c (Proc.devRef .tc main_v22)) = Cert.ReferenceIdeal.ReadP.val_main_v22 (F := Ideal) (m ((c : Thread nD τ).loc main_arg0)) (m ((c : Thread nD τ).loc main_arg1)) := Thread.W1_v22 m ρ c
  have e1 : (W1 m ρ c (Proc.devRef .tc main_arg0)) = m ((c : Thread nD τ).loc main_arg0) := Thread.W1_arg0 m ρ c
  have e2 : (W1 m ρ c (Proc.devRef .tc main_arg2)) = m ((c : Thread nD τ).loc main_arg2) := Thread.W1_arg2 m ρ c
  have e3 : (W1 m ρ c (Proc.devRef .tc main_arg3)) = m ((c : Thread nD τ).loc main_arg3) := Thread.W1_arg3 m ρ c
  have e4 : (W1 m ρ c (Proc.devRef .tc main_v23)) = shapeCast S1x64 (m ((c : Thread nD τ).loc main_arg4)) shapeCasts_S64_S1x64 := Thread.W1_v23 m ρ c
  show _ = _
  simp only [V1]
  rw [e0, e1, e2, e3, e4]
  simp only [Thread.oneRow_apply]

/-- Layer 1: the region's output array is the reference's stage, index by index: both are the same row function of
    rows that agree (the aggregated features, the previous features, the weights and the bias). -/
theorem layer1 (c : Dev nD) :
    W4 m ρ c (Proc.devRef .tc main_v45) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  refine funext fun (i : S100000x32.Idx) => ?_
  rw [eq_ix2 i]
  generalize (i 0 : Fin 100000) = r
  generalize (i 1 : Fin 32) = j
  refine (Cert.KernelIdeal.Layer1.value (V3 m ρ) c r j).trans ?_
  refine Eq.trans ?_ (Cert.ReferenceIdeal.Layer1.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j).symm
  have h24 := layer0 m ρ c
  have e0 : (W3 m ρ c (Proc.devRef .tc main_v43)) = Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := Thread.W3_v43 m ρ c h24
  have e1 : (W3 m ρ c (Proc.devRef .tc main_v24)) = Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (Thread.W3_v24 m ρ c).trans h24
  have e2 : (W3 m ρ c (Proc.devRef .tc main_arg5)) = m ((c : Thread nD τ).loc main_arg5) := Thread.W3_arg5 m ρ c
  have e3 : (W3 m ρ c (Proc.devRef .tc main_arg6)) = m ((c : Thread nD τ).loc main_arg6) := Thread.W3_arg6 m ρ c
  have e4 : (W3 m ρ c (Proc.devRef .tc main_v44)) = shapeCast S1x32 (m ((c : Thread nD τ).loc main_arg7)) shapeCasts_S32_S1x32 := Thread.W3_v44 m ρ c
  show _ = _
  simp only [V3]
  rw [e0, e1, e2, e3, e4]
  simp only [Thread.oneRow_apply]

/-- Layer 2: the region's output array is the reference's stage, index by index: both are the same row function of
    rows that agree (the aggregated features, the previous features, the weights and the bias). -/
theorem layer2 (c : Dev nD) :
    W6 m ρ c (Proc.devRef .tc main_v66) = Cert.ReferenceIdeal.ReadP.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  refine funext fun (i : S100000x10.Idx) => ?_
  rw [eq_ix2 i]
  generalize (i 0 : Fin 100000) = r
  generalize (i 1 : Fin 10) = j
  refine (Cert.KernelIdeal.Layer2.value (V5 m ρ) c r j).trans ?_
  refine Eq.trans ?_ (Cert.ReferenceIdeal.Layer2.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r j).symm
  have h45 := layer1 m ρ c
  have e0 : (W5 m ρ c (Proc.devRef .tc main_v64)) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := Thread.W5_v64 m ρ c h45
  have e1 : (W5 m ρ c (Proc.devRef .tc main_v45)) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (Thread.W5_v45 m ρ c).trans h45
  have e2 : (W5 m ρ c (Proc.devRef .tc main_arg8)) = m ((c : Thread nD τ).loc main_arg8) := Thread.W5_arg8 m ρ c
  have e3 : (W5 m ρ c (Proc.devRef .tc main_arg9)) = m ((c : Thread nD τ).loc main_arg9) := Thread.W5_arg9 m ρ c
  have e4 : (W5 m ρ c (Proc.devRef .tc main_v65)) = shapeCast S1x10 (m ((c : Thread nD τ).loc main_arg10)) shapeCasts_S10_S1x10 := Thread.W5_v65 m ρ c
  show _ = _
  simp only [V5]
  rw [e0, e1, e2, e3, e4]
  simp only [Thread.oneRow_apply]

end Cert.KernelIdeal.Value

end
-- ==== Proof.lean ====
/-
  The kernel is three layers of a mean-aggregating graph network: before each layer the host gathers the features
  along the edges, sums them into their destination nodes and divides by the in-degree (at least one); the layer
  itself, one kernel region over blocks of 5000 nodes, multiplies the aggregated features and the node's own features
  by two weight matrices, adds the bias, divides each row by the larger of its Euclidean norm and 1e-12, and applies
  the relu (the first two layers) or the max-shifted log-softmax (the last). The reference does the same with host
  operations on whole arrays. Over the extended reals the two agree entry by entry: the conversions to bf16 are the
  identity there, a matrix product into a zero accumulator and a host contraction are the same sum, the three affine
  terms are added in two different groupings of a commutative, associative sum, and the reference's extra maximum of
  minus infinity with the row maximum changes nothing. No finiteness of the inputs is used.

  The frames of the two kernel programs are the generated ones; the reference's frame is its run with the result
  dropped; the idealization rewrote no operation, so `preserves` has nothing to say; `algebraic` puts the kernel
  program's run, with its result read back to the reference's last stage of the launch arguments, beside the
  reference's run, and rewrites the reference's arguments to the kernel's.
-/
import proofs.«162872_j54039278518913_1_alg».proof.Defs
import proofs.«162872_j54039278518913_1_alg».proof.Proof.Gen.Kernel
import proofs.«162872_j54039278518913_1_alg».proof.Proof.Gen.Kernel.Frame
import proofs.«162872_j54039278518913_1_alg».proof.Proof.Gen.KernelIdeal
import proofs.«162872_j54039278518913_1_alg».proof.Proof.Gen.KernelIdeal.Frame
import proofs.«162872_j54039278518913_1_alg».proof.Proof.Gen.ReferenceIdeal
import proofs.«162872_j54039278518913_1_alg».proof.Proof.Gen.Pre_finite_inputs
import proofs.«162872_j54039278518913_1_alg».proof.Proof.RefStages
import proofs.«162872_j54039278518913_1_alg».proof.Proof.KRun
import proofs.«162872_j54039278518913_1_alg».proof.Proof.KValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

theorem preserves : Cert.preserves_Kernel_KernelIdeal := trivial

/-- Both programs end with the result at the reference's last stage of the KERNEL's launch arguments: the kernel's by
    the layers' induction, the reference's by its run, its own arguments being the kernel's. -/
theorem algebraic : Cert.algebraic_KernelIdeal_ReferenceIdeal := by
  intro m ρ m' ρ' _ hagree
  refine ⟨fun c => Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Value.layer2 m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Stages.run (F := Ideal) m' ρ')
    obtain ⟨a0, a1, a2, a3, a4, a5, a6, a7, a8, a9, a10⟩ := hagree c
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
